-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel

variable [Facts]

def fn {F : FTy → Type} [FloatOps F] (main_arg0 : FVec F S16384x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  main_v3
-- ==== Kernel.lean ====
abbrev S16384x256 : Shape := ⟨2, ![16384, 256]⟩
abbrev S8192x256 : Shape := ⟨2, ![8192, 256]⟩
abbrev S1x8192 : Shape := ⟨2, ![1, 8192]⟩
abbrev S1024x256 : Shape := ⟨2, ![1024, 256]⟩
abbrev S512x256 : Shape := ⟨2, ![512, 256]⟩
abbrev S1x512 : Shape := ⟨2, ![1, 512]⟩
abbrev S1024 : Shape := ⟨1, ![1024]⟩
abbrev S1024x1 : Shape := ⟨2, ![1024, 1]⟩
abbrev S512 : Shape := ⟨1, ![512]⟩
abbrev S256x512 : Shape := ⟨2, ![256, 512]⟩
abbrev S1024x512 : Shape := ⟨2, ![1024, 512]⟩
abbrev S8192 : Shape := ⟨1, ![8192]⟩
abbrev S_ : Shape := ⟨0, ![]⟩

abbrev nBuf : Space → Nat
  | .hbm => 22
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S8192x256, .f32⟩
  | .hbm, ⟨3, _⟩ => ⟨S1x8192, .f32⟩
  | .hbm, ⟨4, _⟩ => ⟨S1x8192, .f32⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S16384x256_S8192x256_0_0 : S16384x256.Slices ![0, 0] S8192x256
  slices_S16384x256_S8192x256_8192_0 : S16384x256.Slices ![8192, 0] S8192x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S1024x256_S1024 : S1024x256.Reduces [1] S1024
  shapeCasts_S1024_S1024x1 : S1024.ShapeCasts S1024x1
  reduces_S512x256_S512 : S512x256.Reduces [1] S512
  shapeCasts_S512_S1x512 : S512.ShapeCasts S1x512
  transposes_S512x256_p1_0_S256x512 : S512x256.Transposes [1, 0] S256x512
  broadcasts_S1024x1_S1024x512 : S1024x1.Broadcasts S1024x512
  broadcasts_S1x512_S1024x512 : S1x512.Broadcasts S1024x512
  reduces_S1024x512_S512 : S1024x512.Reduces [0] S512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x8192_S8192 : S1x8192.ShapeCasts S8192
  reducesTo_S8192_S_d0 : S8192.ReducesTo [0] S_
  h_S_ : 0 < S_.numel
  bcast_S_S8192 : S_.BroadcastsInDim S8192 (![] : Fin 0 → Fin S8192.rank)
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S8192x256.size a
  hwx0_2 : ∀ i : grid0.Coords, EltTy.bits .f32 = 32 ∨ (Rect.block (s := S8192x256) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x8192.size a
  hwx0_4 : ∀ i : grid0.Coords, EltTy.bits .f32 = 32 ∨ (Rect.block (s := S1x8192) S1x512.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x256 : Shape := ⟨2, ![16384, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 64
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S256x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x256, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x256, .f32⟩
  | .hbm, ⟨29, _⟩ => ⟨S_, .f32⟩
  | .hbm, ⟨30, _⟩ => ⟨S8192, .f32⟩
  | .hbm, ⟨31, _⟩ => ⟨S1x8192, .f32⟩
  | .hbm, ⟨32, _⟩ => ⟨S8192x8192, .f32⟩
  | .hbm, ⟨33, _⟩ => ⟨S8192x8192, .f32⟩
  | .hbm, ⟨34, _⟩ => ⟨S8192x8192, .f32⟩
  | .hbm, ⟨35, _⟩ => ⟨S256x8192, .f32⟩
  | .hbm, ⟨36, _⟩ => ⟨S8192x8192, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_4 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_6 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_7 : Ref sig .tc := ⟨.hbm, 45, rfl⟩
abbrev main_v36 : Ref sig .tc := ⟨.hbm, 46, rfl⟩
abbrev main_cst_8 : Ref sig .tc := ⟨.hbm, 47, rfl⟩
abbrev main_v37 : Ref sig .tc := ⟨.hbm, 48, rfl⟩
abbrev main_cst_9 : Ref sig .tc := ⟨.hbm, 49, rfl⟩
abbrev main_v38 : Ref sig .tc := ⟨.hbm, 50, rfl⟩
abbrev main_cst_10 : Ref sig .tc := ⟨.hbm, 51, rfl⟩
abbrev main_v39 : Ref sig .tc := ⟨.hbm, 52, rfl⟩
abbrev main_cst_11 : Ref sig .tc := ⟨.hbm, 53, rfl⟩
abbrev main_v40 : Ref sig .tc := ⟨.hbm, 54, rfl⟩
abbrev main_v41 : Ref sig .tc := ⟨.hbm, 55, rfl⟩
abbrev main_cst_12 : Ref sig .tc := ⟨.hbm, 56, rfl⟩
abbrev main_v42 : Ref sig .tc := ⟨.hbm, 57, rfl⟩
abbrev main_v43 : Ref sig .tc := ⟨.hbm, 58, rfl⟩
abbrev main_cst_13 : Ref sig .tc := ⟨.hbm, 59, rfl⟩
abbrev main_v44 : Ref sig .tc := ⟨.hbm, 60, rfl⟩
abbrev main_cst_14 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S16384x256_S8192x256_0_0 : S16384x256.Slices ![0, 0] S8192x256
  slices_S16384x256_S8192x256_8192_0 : S16384x256.Slices ![8192, 0] S8192x256
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d0 : S8192x8192.ReducesTo [0] S8192
  reducesTo_S8192_S_d0 : S8192.ReducesTo [0] S_
  bcast_S_S8192 : S_.BroadcastsInDim S8192 (![] : Fin 0 → Fin S8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.Base.lean ====
/-
  What the two whole-body runs and the proof data are stated over.

  @main slices the input into its first and second 8192 rows (two host operations), then runs the one kernel region on a
  16 × 8 grid (column block j, row block i; the row block varies fastest), then seventeen host operations. The region
  enters with every unscoped buffer at `V`: the launch contents after the two slices. Window 0 reads row block i of the
  first half, windows 1 and 2 read column block j of the first and of the second half — so windows 0 and 1 stage blocks
  of ONE array —, windows 3 and 4 are the two 1 × 512 output blocks of column block j, written back when the row block
  is the last. The body resets both output blocks exactly when the row block is the first (`cond`, decided over the
  grid: the points ≡ 0 mod 8).
-/
import proofs.«167629_j67070209294941_1_alg».proof.Proof.Gen.Kernel.Launch
import proofs.«167629_j67070209294941_1_alg».proof.Proof.Gen.Kernel.Skeleton
import proofs.«167629_j67070209294941_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents the region is entered with -/

/-- Core `c`'s buffers at launch, as a valuation; -/
abbrev V₀ (c : Dev nD) : Valuation τ sig (Elt F) := fun b => m ((c : Dev nD), b)
/-- and when the region is entered: the two slices have been taken. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition, from the grid coordinates: the row block is the first. -/
abbrev cond (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond : ∀ t : Fin cfg0.N, cond (grid0.coords t) ↔ t.val % 8 = 0 :=
  (by decide +kernel : ∀ t : Fin grid0.N, cond (grid0.coords t) ↔ t.val % 8 = 0)

/-! ## The staging memrefs -/

/-- One staging buffer of each output window, through which its contents are stated. -/
abbrev VO3 : View sig .tc .vmem S1x512 .f32 := (Memref.whole cc0_stg3_0 : Memref sig .tc .vmem S1x512 .f32).view
abbrev VO4 : View sig .tc .vmem S1x512 .f32 := (Memref.whole cc0_stg4_0 : Memref sig .tc .vmem S1x512 .f32).view
/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)

end Cert.Kernel.Fr

end
-- ==== Proof.K.RunA.lean ====
/-
  The kernel body run once, whole, at a point whose row block is the first: from the three input buffers at their blocks
  and the two output buffers at anything, it ends with the inputs as they were and each output buffer overwritten by
  its stores — the reset value, then the entrywise combination of that value with the point's column value.
-/
import proofs.«167629_j67070209294941_1_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The pieces the body's stores leave in the two output buffers when the branch is taken, with the proof that the
    body runs to its end holding them; the pieces are what the run finds. -/
noncomputable def runA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i)
    (x0 : Vec F S1024x256 .f32) (x1 : Vec F S512x256 .f32) (x2 : Vec F S512x256 .f32) :
    Σ' (L3 : List (View.Piece (Elt F) S1x512 .f32)), { L4 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__triplet_kernel i arg2 harg2 arg3 harg3 arg4 harg4 arg5 harg5 arg6 harg6) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Fr

end
-- ==== Proof.K.RunB.lean ====
/-
  The kernel body run once, whole, at a point whose row block is not the first: from the three input buffers at their
  blocks and the two output buffers at what the point before left, it ends with the inputs as they were and each output
  buffer overwritten by the entrywise combination of what it held with the point's column value.
-/
import proofs.«167629_j67070209294941_1_alg».proof.Proof.K.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The pieces the body's stores leave in the two output buffers when the branch is not taken, with the proof that the
    body runs to its end holding them; the pieces are what the run finds. -/
noncomputable def runB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i)
    (x0 : Vec F S1024x256 .f32) (x1 : Vec F S512x256 .f32) (x2 : Vec F S512x256 .f32) (xo3 : Vec F S1x512 .f32) (xo4 : Vec F S1x512 .f32) :
    Σ' (L3 : List (View.Piece (Elt F) S1x512 .f32)), { L4 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__triplet_kernel i arg2 harg2 arg3 harg3 arg4 harg4 arg5 harg5 arg6 harg6) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.Kernel.Fr

end
-- ==== Proof.K.Data.lean ====
/-
  The pipeline's proof data and the body obligation.

  After the body at grid point `t` each input buffer holds its block again, and the two output buffers hold `outsAt t`:
  at a point whose row block is the first, what the reset case leaves; elsewhere, what the accumulating case leaves over
  what the point before left (the output blocks are not written back between two points of one column block, so the
  buffer still holds it). Windows 0 and 1 stage blocks of one array: the proof data holds the left half share of it for
  window 0 and the right half share for window 1; the other input and the outputs are held whole.
-/
import proofs.«167629_j67070209294941_1_alg».proof.Proof.K.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What each case leaves in the output buffers -/

/-- The reset case's pieces cover each output block (one whole-block store lies on top). -/
theorem coverA3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) (y : S1x512.Idx) :
    ∃ pc ∈ (runA c i arg2 harg2 arg3 harg3 arg4 harg4 arg5 harg5 arg6 harg6 hc x0 x1 x2).1, y ∈ pc.1.set :=
  View.cover_of_tiledL (runA c i arg2 harg2 arg3 harg3 arg4 harg4 arg5 harg5 arg6 harg6 hc x0 x1 x2).1 S1x512.size (by sl_kernel_rfl) y
theorem coverA4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) (y : S1x512.Idx) :
    ∃ pc ∈ (runA c i arg2 harg2 arg3 harg3 arg4 harg4 arg5 harg5 arg6 harg6 hc x0 x1 x2).2.1, y ∈ pc.1.set :=
  View.cover_of_tiledL (runA c i arg2 harg2 arg3 harg3 arg4 harg4 arg5 harg5 arg6 harg6 hc x0 x1 x2).2.1 S1x512.size (by sl_kernel_rfl) y
theorem coverB3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) (y : S1x512.Idx) :
    ∃ pc ∈ (runB c i arg2 harg2 arg3 harg3 arg4 harg4 arg5 harg5 arg6 harg6 hc x0 x1 x2 xo3 xo4).1, y ∈ pc.1.set :=
  View.cover_of_tiledL (runB c i arg2 harg2 arg3 harg3 arg4 harg4 arg5 harg5 arg6 harg6 hc x0 x1 x2 xo3 xo4).1 S1x512.size (by sl_kernel_rfl) y
theorem coverB4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) (y : S1x512.Idx) :
    ∃ pc ∈ (runB c i arg2 harg2 arg3 harg3 arg4 harg4 arg5 harg5 arg6 harg6 hc x0 x1 x2 xo3 xo4).2.1, y ∈ pc.1.set :=
  View.cover_of_tiledL (runB c i arg2 harg2 arg3 harg3 arg4 harg4 arg5 harg5 arg6 harg6 hc x0 x1 x2 xo3 xo4).2.1 S1x512.size (by sl_kernel_rfl) y

/-- What each case leaves in each output buffer: its pieces read back (over contents that no longer show). -/
def outA3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) : Vec F S1x512 .f32 :=
  VO3.read (Elt F) (VO3.writes (Elt F) VO3.junk (runA c i arg2 harg2 arg3 harg3 arg4 harg4 arg5 harg5 arg6 harg6 hc x0 x1 x2).1)
def outA4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) : Vec F S1x512 .f32 :=
  VO4.read (Elt F) (VO4.writes (Elt F) VO4.junk (runA c i arg2 harg2 arg3 harg3 arg4 harg4 arg5 harg5 arg6 harg6 hc x0 x1 x2).2.1)
def outB3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) : Vec F S1x512 .f32 :=
  VO3.read (Elt F) (VO3.writes (Elt F) VO3.junk (runB c i arg2 harg2 arg3 harg3 arg4 harg4 arg5 harg5 arg6 harg6 hc x0 x1 x2 xo3 xo4).1)
def outB4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) : Vec F S1x512 .f32 :=
  VO4.read (Elt F) (VO4.writes (Elt F) VO4.junk (runB c i arg2 harg2 arg3 harg3 arg4 harg4 arg5 harg5 arg6 harg6 hc x0 x1 x2 xo3 xo4).2.1)

/-! ## What the output buffers hold after each point -/

/-- The accumulation: the pair of output blocks after the body at position `n`. -/
def outsAt (c : Dev nD) : (n : ℕ) → n < cfg0.N → Vec F S1x512 .f32 × Vec F S1x512 .f32
  | 0, hn => (outA3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond ⟨0, hn⟩).mpr (Nat.zero_mod _)) (iblk m c 0 ⟨0, hn⟩) (iblk m c 1 ⟨0, hn⟩) (iblk m c 2 ⟨0, hn⟩),
              outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond ⟨0, hn⟩).mpr (Nat.zero_mod _)) (iblk m c 0 ⟨0, hn⟩) (iblk m c 1 ⟨0, hn⟩) (iblk m c 2 ⟨0, hn⟩))
  | n + 1, hn =>
    if h0 : (n + 1) % 8 = 0 then
      (outA3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond ⟨n + 1, hn⟩).mpr h0) (iblk m c 0 ⟨n + 1, hn⟩) (iblk m c 1 ⟨n + 1, hn⟩) (iblk m c 2 ⟨n + 1, hn⟩),
       outA4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond ⟨n + 1, hn⟩).mpr h0) (iblk m c 0 ⟨n + 1, hn⟩) (iblk m c 1 ⟨n + 1, hn⟩) (iblk m c 2 ⟨n + 1, hn⟩))
    else
      (outB3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond ⟨n + 1, hn⟩).mp h)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond ⟨n + 1, hn⟩).mp h)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2)

/-- `outsAt` at a point whose row block is the first: the reset case's contents. -/
theorem outsAt_A (c : Dev nD) (t : Fin cfg0.N) (h0 : t.val % 8 = 0) :
    outsAt m c t.val t.isLt = (outA3 c (grid0.coords t) (ms0 t) (hs0 t) (ms1 t) (hs1 t) (ms2 t) (hs2 t) (ms3 t) (hs3 t) (ms4 t) (hs4 t) ((hcond t).mpr h0) (iblk m c 0 t) (iblk m c 1 t) (iblk m c 2 t),
                               outA4 c (grid0.coords t) (ms0 t) (hs0 t) (ms1 t) (hs1 t) (ms2 t) (hs2 t) (ms3 t) (hs3 t) (ms4 t) (hs4 t) ((hcond t).mpr h0) (iblk m c 0 t) (iblk m c 1 t) (iblk m c 2 t)) := by
  obtain ⟨n, hn⟩ := t
  cases n with
  | zero => exact rfl
  | succ n => exact (dif_pos h0).trans rfl

/-- `outsAt` elsewhere: the accumulating case's contents over what the point before left. -/
theorem outsAt_B (c : Dev nD) (t : Fin cfg0.N) (h0 : ¬t.val % 8 = 0) :
    outsAt m c t.val t.isLt =
      (outB3 c (grid0.coords t) (ms0 t) (hs0 t) (ms1 t) (hs1 t) (ms2 t) (hs2 t) (ms3 t) (hs3 t) (ms4 t) (hs4 t) (fun h => h0 ((hcond t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2,
       outB4 c (grid0.coords t) (ms0 t) (hs0 t) (ms1 t) (hs1 t) (ms2 t) (hs2 t) (ms3 t) (hs3 t) (ms4 t) (hs4 t) (fun h => h0 ((hcond t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem after4 (c : Dev nD) (t : Fin cfg0.N) : (dats m 0 c).after 4 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- At a point whose row block is not the first, each output's current staging buffer holds what the body left at the
    point before: the buffer was not written back between. -/
theorem before3_B (c : Dev nD) (t : Fin cfg0.N) (h0 : ¬t.val % 8 = 0) (d) :
    (dats m 0 c).before 3 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]
theorem before4_B (c : Dev nD) (t : Fin cfg0.N) (h0 : ¬t.val % 8 = 0) (d) :
    (dats m 0 c).before 4 t d = (outsAt m c (t.val - 1) (Nat.lt_of_le_of_lt (Nat.sub_le _ _) t.isLt)).2 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the closed form says which case the point is in;
    where the row block is not the first the output buffers hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  have hN : t.val < 128 := lt_of_lt_of_eq t.isLt (show cfg0.N = 128 from N_0)
  by_cases h0 : t.val % 8 = 0
  · rw [outsAt_A m c t h0]
    dsimp only
    unfold outA3 outA4
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 c _ _ _ _ _ _ _ _ _ _ _ _ _ _ _)
    · unfold owns; iexists _; isplitr
      swap; · iexact H4
      ipureintro; exact View.read_writes_of_cover _ _ _ _ _ (coverA4 c _ _ _ _ _ _ _ _ _ _ _ _ _ _ _)
  · rw [outsAt_B m c t h0]
    dsimp only
    simp only [before3_B m c t h0, before4_B m c t h0]
    unfold outB3 outB4
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 c _ _ _ _ _ _ _ _ _ _ _ _ _ _ _ _ _)
    · unfold owns; iexists _; isplitr
      swap; · iexact H4
      ipureintro; exact View.read_writes_of_cover _ _ _ _ _ (coverB4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Launch.lean ====
/-
  The launch: @main as three segments — the two host slices, the kernel region, the seventeen host operations after it —
  and the run of the whole program.

  Between segments the core holds every unscoped buffer whole at a valuation. The region is entered by sorting the
  windows' arrays out of those buffers: the first half of the input is read by two windows, so its buffer's full share
  is split into its left and right halves, one for each; the other arrays are held whole. At the region's exit the two
  halves — both still at the entry contents, the windows being inputs — are joined again, and the two output arrays
  carry what the write-backs left; the valuation is the entry one updated at those two buffers. The host operations then
  run from it. The final state is read buffer by buffer against the last valuation.
-/
import proofs.«167629_j67070209294941_1_alg».proof.Proof.K.Data
import Idealize.ShloMosaic.Lib.Pipeline.Regions
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

open Idealize.SL.BI (bigSep bigSepL bigSep_eq_bigSepL_of_eq bigSep_congr)

variable (ρ : Dev nD → PrngReg)

/-! ## The windows' arrays as points-tos -/

theorem share0 (c : Dev nD) : (dats m 0 c).share 0 = fullShare.left := by
  unfold Pipeline.Dat.share; rw [if_neg (by decide)]; dsimp only [dats]
theorem share1 (c : Dev nD) : (dats m 0 c).share 1 = fullShare.right := by
  unfold Pipeline.Dat.share; rw [if_neg (by decide)]; dsimp only [dats]
theorem share2 (c : Dev nD) : (dats m 0 c).share 2 = fullShare := by
  unfold Pipeline.Dat.share; rw [if_neg (by decide)]; dsimp only [dats]
theorem share3 (c : Dev nD) : (dats m 0 c).share 3 = fullShare := by
  unfold Pipeline.Dat.share; rw [if_pos (by decide)]
theorem share4 (c : Dev nD) : (dats m 0 c).share 4 = fullShare := by
  unfold Pipeline.Dat.share; rw [if_pos (by decide)]

/-- The pipeline's arrays as whole buffers at their shares. -/
theorem arrays_whole (c : Dev nD) (G : (w : Fin cfg0.W) → Buf (Elt F) ((cfg0.win w).arr.view.loc (c : Thread nD τ))) :
    ((dats m 0 c).arrays G : sProp 𝕄)
      = bigSep Finset.univ fun w : Fin 5 => (((c : Thread nD τ).loc (Pipeline.arrRef spec0 w)) ↦{(dats m 0 c).share w} G w : sProp 𝕄) := by
  unfold Pipeline.Dat.arrays
  exact bigSep_congr fun w _ => by rw [(arr_whole0 w).set_eq_univ]

/-- The pipeline's arrays, window by window: the first two hold the two halves of one buffer. -/
theorem arrays_five (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2_0) ↦{fullShare} G 3)
          ∗ (((c : Thread nD τ).loc main_v2_1) ↦{fullShare} G 4)) := by
  rw [arrays_whole, bigSep_W0, share0, share1, share2, share3, share4]

/-- The buffers behind the arrays, listed: four buffers for five windows. -/
theorem arrBufs_four (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_v0, main_v1, main_v2_0, main_v2_1] (by decide) (by decide) _

/-! ## The valuation the region leaves -/

/-- The entry contents with the two output arrays at what the write-backs left. -/
def V2 (c : Dev nD) : Valuation τ sig (Elt F) :=
  Function.update (Function.update (StableHlo.after hostOps0 (V₀ m c)) (Proc.devRef .tc main_v2_0) ((dats m 0 c).arrAt 3 cfg0.N))
    (Proc.devRef .tc main_v2_1) ((dats m 0 c).arrAt 4 cfg0.N)

theorem V2_v2_0 (c : Dev nD) : V2 m c (Proc.devRef .tc main_v2_0) = (dats m 0 c).arrAt 3 cfg0.N := by
  unfold V2
  rw [Function.update_of_ne (by decide), Function.update_self]

theorem V2_v2_1 (c : Dev nD) : V2 m c (Proc.devRef .tc main_v2_1) = (dats m 0 c).arrAt 4 cfg0.N := by
  unfold V2
  rw [Function.update_self]

theorem V2_of_ne (c : Dev nD) (b : Ref sig .tc) (h0 : b ≠ main_v2_0) (h1 : b ≠ main_v2_1) :
    V2 m c (Proc.devRef .tc b) = V m c b := by
  unfold V2
  rw [Function.update_of_ne (fun e => h1 (Proc.devRef_injective _ e)), Function.update_of_ne (fun e => h0 (Proc.devRef_injective _ e))]

/-! ## Entering and leaving the region -/

/-- ENTRY: every unscoped buffer at the entry contents is the windows' arrays at those contents — the first half of the
    input split between its two windows — and the buffers no window stages. -/
theorem entry_split (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held (Ix := Unit) (Name := ℕ) (U := UR sig nD τ) (Lvl := ℕ) c (StableHlo.after hostOps0 (V₀ m c))]
  rw [show (unscopedBufs c (fun b => StableHlo.after hostOps0 (V₀ m c) b) : sProp 𝕄)
      = iprop((Pipeline.arrBufs spec0 c (V m c) : sProp 𝕄) ∗ Pipeline.unscopedRest spec0 c (V m c))
    from Pipeline.unscopedBufs_split₀ cfgs 0 winFacts₀0.arr_unscoped c (V m c)]
  rw [arrBufs_four, arrays_five]
  iintro ⟨⟨H0, H1, H2, H3⟩, HR⟩
  ihave H0' := (pointsTo_share (PosShare.mem_left_op_right fullShare)).1 $$ H0
  icases H0' with ⟨H0l, H0r⟩
  isplitr [HR]
  · isplitl [H0l]; · iexact H0l
    isplitl [H0r]; · iexact H0r
    isplitl [H1]; · iexact H1
    isplitl [H2]; · iexact H2
    iexact H3
  · iexact HR

/-- An input window's array ends at its entry contents. -/
theorem arrAt_in0 (c : Dev nD) : (dats m 0 c).arrAt 0 cfg0.N = V m c main_v0 :=
  ((dats m 0 c).arrAt_in 0 rfl _).trans (A_eq m c 0)
theorem arrAt_in1 (c : Dev nD) : (dats m 0 c).arrAt 1 cfg0.N = V m c main_v0 :=
  ((dats m 0 c).arrAt_in 1 rfl _).trans (A_eq m c 1)
theorem arrAt_in2 (c : Dev nD) : (dats m 0 c).arrAt 2 cfg0.N = V m c main_v1 :=
  ((dats m 0 c).arrAt_in 2 rfl _).trans (A_eq m c 2)

/-- EXIT: the windows' arrays at their final contents and the buffers no window stages are every unscoped buffer at the
    exit valuation — the two halves of the first half of the input, both at the entry contents, joined again. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (V2 m c) : sProp 𝕄) := by
  rw [← Pipeline.unscopedBufs_held (Ix := Unit) (Name := ℕ) (U := UR sig nD τ) (Lvl := ℕ) c (V2 m c)]
  rw [show (unscopedBufs c (fun b => V2 m c b) : sProp 𝕄)
      = iprop((Pipeline.arrBufs spec0 c (fun b => V2 m c (Proc.devRef .tc b)) : sProp 𝕄) ∗ Pipeline.unscopedRest spec0 c (fun b => V2 m c (Proc.devRef .tc b)))
    from Pipeline.unscopedBufs_split₀ cfgs 0 winFacts₀0.arr_unscoped c (fun b => V2 m c (Proc.devRef .tc b))]
  rw [arrBufs_four, arrays_five]
  rw [show (Pipeline.unscopedRest spec0 c (fun b => V2 m c (Proc.devRef .tc b)) : sProp 𝕄) = Pipeline.unscopedRest spec0 c (V m c) from by
    unfold Pipeline.unscopedRest
    exact bigSep_congr fun b hb => by
      have hb' := (Finset.mem_sdiff.mp hb).2
      dsimp only
      rw [V2_of_ne m c b (fun e => hb' (Finset.mem_image.mpr ⟨3, Finset.mem_univ _, e ▸ rfl⟩))
        (fun e => hb' (Finset.mem_image.mpr ⟨4, Finset.mem_univ _, e ▸ rfl⟩))]]
  dsimp only
  rw [arrAt_in0, arrAt_in1, arrAt_in2, V2_v2_0, V2_v2_1, V2_of_ne m c main_v0 (by decide) (by decide), V2_of_ne m c main_v1 (by decide) (by decide)]
  iintro ⟨⟨H0l, H0r, H1, H2, H3⟩, HR⟩
  isplitr [HR]
  · isplitl [H0l H0r]
    · iapply (pointsTo_share (PosShare.mem_left_op_right fullShare)).2
      isplitl [H0l] <;> iassumption
    isplitl [H1]; · iexact H1
    isplitl [H2]; · iexact H2
    iexact H3
  · iexact HR

/-! ## @main as segments -/

/-- What rides beside the buffers: the core owes nothing. -/
abbrev R (c : Dev nD) : sProp 𝕄 := iprop(∃ W, owes (c : Thread nD τ) (0 : CellTallies nD τ sig Unit) W)

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none
/-- The pipeline library's algebra is the whole user component. -/
abbrev EP : Emb (UR sig nD τ) (MT nD τ sig Unit (Elt F) ℕ (UR sig nD τ) ℕ) := emb₁

/-- The two slices before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The seventeen operations after the region, from the exit valuation. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V2 m) R

set_option backward.isDefEq.respectTransparency.types false in
/-- The region: the decided layout (the arrays' distinctness apart), no semaphore of the kernel's own, the body
    obligation; entered by `entry_split`, left by `exit_join`; nothing enters the invariant but the scoped rest. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V2 m c) ∗ R c)
  X _ := iprop(emp)
  Y _ := iprop(emp)
  Z c := Pipeline.unscopedRest (Ix := Unit) (Name := ℕ) (U := UR sig nD τ) (Lvl := ℕ) spec0 c (V m c)
  hentry c := by
    iintro ⟨⟨Hub, HO⟩, -, -⟩
    have hE := entry_split m c
    ihave H := hE $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [HZ]; · iempintro
    iexact HZ
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    iintro ⟨Ha, HO, -, HZ⟩
    imodintro
    isplitr [HO]
    · iapply (exit_join m c)
      isplitl [Ha] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- The valuation when @main returns. -/
abbrev Vend (c : Dev nD) : Valuation τ sig (Elt F) := StableHlo.after hostOps1 (V2 m c)

/-- The run's post: every unscoped buffer holds its value under the last valuation. -/
def Post : PUnit × MemSt nD τ sig (Elt F) → Prop := fun r =>
  ∀ c : Dev nD, ∀ b ∈ Pipeline.ucRefs τ sig, r.2.mem ((c : Thread nD τ).1, b) = Vend m c b

set_option backward.isDefEq.respectTransparency.types false in
/-- At the compiled mesh, for any float values, from any memory with zero counters: every weakly fair execution of
    @main on the TensorCores terminates, and every final state has every unscoped buffer at the last valuation. -/
theorem run_main : θ_run defs (onTc (τ := τ) (main (F := F))) ⟨m, fun _ => 0, ρ⟩ (Post m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vend m c b)
    (hfin := fun c s' => by
      unfold StableHlo.held
      iintro ⟨Hh, HSI⟩
      imodintro
      iapply (pointsTo_read_all (Pipeline.ucRefs τ sig) (fun b => ((c : Thread nD τ).1, b)) (Vend m c) s')
      isplitl [Hh] <;> iassumption)
    (hQ := fun _ h => h)

/-- info: 'Cert.Kernel.Fr.run_main' depends on axioms: [propext, Classical.choice, Quot.sound] -/
#guard_msgs in #print axioms run_main

/-! ## The frame claim -/

/-- A TensorCore reference that is not scoped is among the buffers the run reads back. -/
theorem mem_ucRefs (b : Ref sig .tc) (h : (Proc.devRef (τ := τ) .tc b).isScoped = false) : Proc.devRef .tc b ∈ Pipeline.ucRefs τ sig :=
  Finset.mem_filter.mpr ⟨StableHlo.devRef_mem_tcRefs b, by rw [h]; exact Bool.false_ne_true⟩

/-- No operation of @main writes the argument: under the last valuation it is as launched. -/
theorem Vend_arg0 (c : Dev nD) : Vend m c (Proc.devRef .tc main_arg0) = m ((c : Thread nD τ).loc main_arg0) := by
  show StableHlo.after hostOps1 (V2 m c) (Proc.devRef .tc main_arg0) = _
  after_results
  rw [V2_of_ne m c main_arg0 (by decide) (by decide)]
  show StableHlo.after hostOps0 (V₀ m c) (Proc.devRef .tc main_arg0) = _
  after_results

/-- THE FRAME: the program runs to its end, nothing faults, and the argument array ends unchanged — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c (Proc.devRef .tc main_arg0) (mem_ucRefs main_arg0 rfl)).trans (Vend_arg0 m c)) (run_main m ρ)

end Cert.Kernel.Fr

end
-- ==== Proof.KI.Base.lean ====
/-
  What the two whole-body runs and the proof data are stated over.

  @main slices the input into its first and second 8192 rows (two host operations), then runs the one kernel region on a
  16 × 8 grid (column block j, row block i; the row block varies fastest), then seventeen host operations. The region
  enters with every unscoped buffer at `V`: the launch contents after the two slices. Window 0 reads row block i of the
  first half, windows 1 and 2 read column block j of the first and of the second half — so windows 0 and 1 stage blocks
  of ONE array —, windows 3 and 4 are the two 1 × 512 output blocks of column block j, written back when the row block
  is the last. The body resets both output blocks exactly when the row block is the first (`cond`, decided over the
  grid: the points ≡ 0 mod 8).
-/
import proofs.«167629_j67070209294941_1_alg».proof.Proof.Gen.KernelIdeal.Launch
import proofs.«167629_j67070209294941_1_alg».proof.Proof.Gen.KernelIdeal.Skeleton
import proofs.«167629_j67070209294941_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents the region is entered with -/

/-- Core `c`'s buffers at launch, as a valuation; -/
abbrev V₀ (c : Dev nD) : Valuation τ sig (Elt F) := fun b => m ((c : Dev nD), b)
/-- and when the region is entered: the two slices have been taken. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is `V`'s and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body's one condition, from the grid coordinates: the row block is the first. -/
abbrev cond (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond : ∀ t : Fin cfg0.N, cond (grid0.coords t) ↔ t.val % 8 = 0 :=
  (by decide +kernel : ∀ t : Fin grid0.N, cond (grid0.coords t) ↔ t.val % 8 = 0)

/-! ## The staging memrefs -/

/-- One staging buffer of each output window, through which its contents are stated. -/
abbrev VO3 : View sig .tc .vmem S1x512 .f32 := (Memref.whole cc0_stg3_0 : Memref sig .tc .vmem S1x512 .f32).view
abbrev VO4 : View sig .tc .vmem S1x512 .f32 := (Memref.whole cc0_stg4_0 : Memref sig .tc .vmem S1x512 .f32).view
/-- Each window's current staging memref at point `t`, as the pipeline passes it, and its wholeness. -/
abbrev ms0 (t : Fin cfg0.N) : Memref sig .tc .vmem S1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512 .f32 := win0_4.stage (cfg0.slots t 4)
abbrev hs4 (t : Fin cfg0.N) : (ms4 t).IsWhole := hstage0_4 ((cfg0.slots t 4).cast nbuf0_4)

end Cert.KernelIdeal.Fr

end
-- ==== Proof.KI.RunA.lean ====
/-
  The kernel body run once, whole, at a point whose row block is the first: from the three input buffers at their blocks
  and the two output buffers at anything, it ends with the inputs as they were and each output buffer overwritten by
  its stores — the reset value, then the entrywise combination of that value with the point's column value.
-/
import proofs.«167629_j67070209294941_1_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The pieces the body's stores leave in the two output buffers when the branch is taken, with the proof that the
    body runs to its end holding them; the pieces are what the run finds. -/
noncomputable def runA (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i)
    (x0 : Vec F S1024x256 .f32) (x1 : Vec F S512x256 .f32) (x2 : Vec F S512x256 .f32) :
    Σ' (L3 : List (View.Piece (Elt F) S1x512 .f32)), { L4 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__triplet_kernel i arg2 harg2 arg3 harg3 arg4 harg4 arg5 harg5 arg6 harg6) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Fr

end
-- ==== Proof.KI.RunB.lean ====
/-
  The kernel body run once, whole, at a point whose row block is not the first: from the three input buffers at their
  blocks and the two output buffers at what the point before left, it ends with the inputs as they were and each output
  buffer overwritten by the entrywise combination of what it held with the point's column value.
-/
import proofs.«167629_j67070209294941_1_alg».proof.Proof.KI.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 2000000 in
/-- The pieces the body's stores leave in the two output buffers when the branch is not taken, with the proof that the
    body runs to its end holding them; the pieces are what the run finds. -/
noncomputable def runB (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i)
    (x0 : Vec F S1024x256 .f32) (x1 : Vec F S512x256 .f32) (x2 : Vec F S512x256 .f32) (xo3 : Vec F S1x512 .f32) (xo4 : Vec F S1x512 .f32) :
    Σ' (L3 : List (View.Piece (Elt F) S1x512 .f32)), { L4 : List (View.Piece (Elt F) S1x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)) -∗ K ⟨⟩))
          ⊢ wp frame (wpE (defs₀ (F := F)) Variants.none c none) E (cc0__triplet_kernel i arg2 harg2 arg3 harg3 arg4 harg4 arg5 harg5 arg6 harg6) K } := by
  refine ⟨?_, ?_, fun E K => ?run⟩
  case run =>
    simp only [cc0__triplet_kernel_eq_skeleton]; unfold cc0__triplet_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact H4

end Cert.KernelIdeal.Fr

end
-- ==== Proof.KI.Data.lean ====
/-
  The pipeline's proof data and the body obligation.

  After the body at grid point `t` each input buffer holds its block again, and the two output buffers hold `outsAt t`:
  at a point whose row block is the first, what the reset case leaves; elsewhere, what the accumulating case leaves over
  what the point before left (the output blocks are not written back between two points of one column block, so the
  buffer still holds it). Windows 0 and 1 stage blocks of one array: the proof data holds the left half share of it for
  window 0 and the right half share for window 1; the other input and the outputs are held whole.
-/
import proofs.«167629_j67070209294941_1_alg».proof.Proof.KI.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What each case leaves in the output buffers -/

/-- The reset case's pieces cover each output block (one whole-block store lies on top). -/
theorem coverA3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) (y : S1x512.Idx) :
    ∃ pc ∈ (runA c i arg2 harg2 arg3 harg3 arg4 harg4 arg5 harg5 arg6 harg6 hc x0 x1 x2).1, y ∈ pc.1.set :=
  View.cover_of_tiledL (runA c i arg2 harg2 arg3 harg3 arg4 harg4 arg5 harg5 arg6 harg6 hc x0 x1 x2).1 S1x512.size (by sl_kernel_rfl) y
theorem coverA4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) (y : S1x512.Idx) :
    ∃ pc ∈ (runA c i arg2 harg2 arg3 harg3 arg4 harg4 arg5 harg5 arg6 harg6 hc x0 x1 x2).2.1, y ∈ pc.1.set :=
  View.cover_of_tiledL (runA c i arg2 harg2 arg3 harg3 arg4 harg4 arg5 harg5 arg6 harg6 hc x0 x1 x2).2.1 S1x512.size (by sl_kernel_rfl) y
theorem coverB3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) (y : S1x512.Idx) :
    ∃ pc ∈ (runB c i arg2 harg2 arg3 harg3 arg4 harg4 arg5 harg5 arg6 harg6 hc x0 x1 x2 xo3 xo4).1, y ∈ pc.1.set :=
  View.cover_of_tiledL (runB c i arg2 harg2 arg3 harg3 arg4 harg4 arg5 harg5 arg6 harg6 hc x0 x1 x2 xo3 xo4).1 S1x512.size (by sl_kernel_rfl) y
theorem coverB4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) (y : S1x512.Idx) :
    ∃ pc ∈ (runB c i arg2 harg2 arg3 harg3 arg4 harg4 arg5 harg5 arg6 harg6 hc x0 x1 x2 xo3 xo4).2.1, y ∈ pc.1.set :=
  View.cover_of_tiledL (runB c i arg2 harg2 arg3 harg3 arg4 harg4 arg5 harg5 arg6 harg6 hc x0 x1 x2 xo3 xo4).2.1 S1x512.size (by sl_kernel_rfl) y

/-- What each case leaves in each output buffer: its pieces read back (over contents that no longer show). -/
def outA3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) : Vec F S1x512 .f32 :=
  VO3.read (Elt F) (VO3.writes (Elt F) VO3.junk (runA c i arg2 harg2 arg3 harg3 arg4 harg4 arg5 harg5 arg6 harg6 hc x0 x1 x2).1)
def outA4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) : Vec F S1x512 .f32 :=
  VO4.read (Elt F) (VO4.writes (Elt F) VO4.junk (runA c i arg2 harg2 arg3 harg3 arg4 harg4 arg5 harg5 arg6 harg6 hc x0 x1 x2).2.1)
def outB3 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) : Vec F S1x512 .f32 :=
  VO3.read (Elt F) (VO3.writes (Elt F) VO3.junk (runB c i arg2 harg2 arg3 harg3 arg4 harg4 arg5 harg5 arg6 harg6 hc x0 x1 x2 xo3 xo4).1)
def outB4 (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) : Vec F S1x512 .f32 :=
  VO4.read (Elt F) (VO4.writes (Elt F) VO4.junk (runB c i arg2 harg2 arg3 harg3 arg4 harg4 arg5 harg5 arg6 harg6 hc x0 x1 x2 xo3 xo4).2.1)

/-! ## What the output buffers hold after each point -/

/-- The accumulation: the pair of output blocks after the body at position `n`. -/
def outsAt (c : Dev nD) : (n : ℕ) → n < cfg0.N → Vec F S1x512 .f32 × Vec F S1x512 .f32
  | 0, hn => (outA3 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond ⟨0, hn⟩).mpr (Nat.zero_mod _)) (iblk m c 0 ⟨0, hn⟩) (iblk m c 1 ⟨0, hn⟩) (iblk m c 2 ⟨0, hn⟩),
              outA4 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) ((hcond ⟨0, hn⟩).mpr (Nat.zero_mod _)) (iblk m c 0 ⟨0, hn⟩) (iblk m c 1 ⟨0, hn⟩) (iblk m c 2 ⟨0, hn⟩))
  | n + 1, hn =>
    if h0 : (n + 1) % 8 = 0 then
      (outA3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond ⟨n + 1, hn⟩).mpr h0) (iblk m c 0 ⟨n + 1, hn⟩) (iblk m c 1 ⟨n + 1, hn⟩) (iblk m c 2 ⟨n + 1, hn⟩),
       outA4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) ((hcond ⟨n + 1, hn⟩).mpr h0) (iblk m c 0 ⟨n + 1, hn⟩) (iblk m c 1 ⟨n + 1, hn⟩) (iblk m c 2 ⟨n + 1, hn⟩))
    else
      (outB3 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond ⟨n + 1, hn⟩).mp h)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2,
       outB4 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (fun h => h0 ((hcond ⟨n + 1, hn⟩).mp h)) (iblk m c 0 ⟨n + 1, hn⟩) (iblk m c 1 ⟨n + 1, hn⟩) (iblk m c 2 ⟨n + 1, hn⟩) (outsAt c n (Nat.lt_of_succ_lt hn)).1 (outsAt c n (Nat.lt_of_succ_lt hn)).2)

/-- `outsAt` at a point whose row block is the first: the reset case's contents. -/
theorem outsAt_A (c : Dev nD) (t : Fin cfg0.N) (h0 : t.val % 8 = 0) :
    outsAt m c t.val t.isLt = (outA3 c (grid0.coords t) (ms0 t) (hs0 t) (ms1 t) (hs1 t) (ms2 t) (hs2 t) (ms3 t) (hs3 t) (ms4 t) (hs4 t) ((hcond t).mpr h0) (iblk m c 0 t) (iblk m c 1 t) (iblk m c 2 t),
                               outA4 c (grid0.coords t) (ms0 t) (hs0 t) (ms1 t) (hs1 t) (ms2 t) (hs2 t) (ms3 t) (hs3 t) (ms4 t) (hs4 t) ((hcond t).mpr h0) (iblk m c 0 t) (iblk m c 1 t) (iblk m c 2 t)) := by
  obtain ⟨n, hn⟩ := t
  cases n with
  | zero => exact rfl
  | succ n => exact (dif_pos h0).trans rfl

/-- `outsAt` elsewhere: the accumulating case's contents over what the point before left. -/
theorem outsAt_B (c : Dev nD) (t : Fin cfg0.N) (h0 : ¬t.val % 8 = 0) :
    outsAt m c t.val t.isLt =
      (outB3 c (grid0.coords t) (ms0 t) (hs0 t) (ms1 t) (hs1 t) (ms2 t) (hs2 t) (ms3 t) (hs3 t) (ms4 t) (hs4 t) (fun h => h0 ((hcond t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2,
       outB4 c (grid0.coords t) (ms0 t) (hs0 t) (ms1 t) (hs1 t) (ms2 t) (hs2 t) (ms3 t) (hs3 t) (ms4 t) (hs4 t) (fun h => h0 ((hcond t).mp h)) (iblk m c 0 t) (iblk m c 1 t) (iblk m c 2 t) (outsAt m c (t.val - 1) (Nat.lt_of_le_of_lt (Nat.sub_le _ _) t.isLt)).1 (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
    | ⟨4, _⟩ => (outsAt m c t.val t.isLt).2
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem after4 (c : Dev nD) (t : Fin cfg0.N) : (dats m 0 c).after 4 t = (outsAt m c t.val t.isLt).2 := by dsimp only [dats]

/-- Each input's current staging buffer holds its block at every point, fetched there or not. -/
theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d

/-- At a point whose row block is not the first, each output's current staging buffer holds what the body left at the
    point before: the buffer was not written back between. -/
theorem before3_B (c : Dev nD) (t : Fin cfg0.N) (h0 : ¬t.val % 8 = 0) (d) :
    (dats m 0 c).before 3 t d = (outsAt m c (t.val - 1) (Nat.lt_of_le_of_lt (Nat.sub_le _ _) t.isLt)).1 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]
theorem before4_B (c : Dev nD) (t : Fin cfg0.N) (h0 : ¬t.val % 8 = 0) (d) :
    (dats m 0 c).before 4 t d = (outsAt m c (t.val - 1) (Nat.lt_of_le_of_lt (Nat.sub_le _ _) t.isLt)).2 := by
  have hN : t.val < 128 := lt_of_lt_of_eq t.isLt (show cfg0.N = 128 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1600000 in
/-- The body at any point: the inputs' buffers hold their blocks; the closed form says which case the point is in;
    where the row block is not the first the output buffers hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  have hN : t.val < 128 := lt_of_lt_of_eq t.isLt (show cfg0.N = 128 from N_0)
  by_cases h0 : t.val % 8 = 0
  · rw [outsAt_A m c t h0]
    dsimp only
    unfold outA3 outA4
    iintro ⟨HΦ, Ho, ⟨%d0, H0⟩, ⟨%d1, H1⟩, ⟨%d2, H2⟩, ⟨%d3, H3⟩, ⟨%d4, H4⟩⟩
    iapply ((runA c (grid0.coords t) _ _ _ _ _ _ _ _ _ _ ((hcond t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverA3 c _ _ _ _ _ _ _ _ _ _ _ _ _ _ _)
    · unfold owns; iexists _; isplitr
      swap; · iexact H4
      ipureintro; exact View.read_writes_of_cover _ _ _ _ _ (coverA4 c _ _ _ _ _ _ _ _ _ _ _ _ _ _ _)
  · rw [outsAt_B m c t h0]
    dsimp only
    simp only [before3_B m c t h0, before4_B m c t h0]
    unfold outB3 outB4
    iintro ⟨HΦ, Ho, ⟨%d0, H0⟩, ⟨%d1, H1⟩, ⟨%d2, H2⟩, ⟨%d3, H3⟩, ⟨%d4, H4⟩⟩
    iapply ((runB c (grid0.coords t) _ _ _ _ _ _ _ _ _ _ (fun h => h0 ((hcond t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (coverB3 c _ _ _ _ _ _ _ _ _ _ _ _ _ _ _ _ _)
    · unfold owns; iexists _; isplitr
      swap; · iexact H4
      ipureintro; exact View.read_writes_of_cover _ _ _ _ _ (coverB4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Launch.lean ====
/-
  The launch: @main as three segments — the two host slices, the kernel region, the seventeen host operations after it —
  and the run of the whole program.

  Between segments the core holds every unscoped buffer whole at a valuation. The region is entered by sorting the
  windows' arrays out of those buffers: the first half of the input is read by two windows, so its buffer's full share
  is split into its left and right halves, one for each; the other arrays are held whole. At the region's exit the two
  halves — both still at the entry contents, the windows being inputs — are joined again, and the two output arrays
  carry what the write-backs left; the valuation is the entry one updated at those two buffers. The host operations then
  run from it. The final state is read buffer by buffer against the last valuation.
-/
import proofs.«167629_j67070209294941_1_alg».proof.Proof.KI.Data
import Idealize.ShloMosaic.Lib.Pipeline.Regions
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

open Idealize.SL.BI (bigSep bigSepL bigSep_eq_bigSepL_of_eq bigSep_congr)

variable (ρ : Dev nD → PrngReg)

/-! ## The windows' arrays as points-tos -/

theorem share0 (c : Dev nD) : (dats m 0 c).share 0 = fullShare.left := by
  unfold Pipeline.Dat.share; rw [if_neg (by decide)]; dsimp only [dats]
theorem share1 (c : Dev nD) : (dats m 0 c).share 1 = fullShare.right := by
  unfold Pipeline.Dat.share; rw [if_neg (by decide)]; dsimp only [dats]
theorem share2 (c : Dev nD) : (dats m 0 c).share 2 = fullShare := by
  unfold Pipeline.Dat.share; rw [if_neg (by decide)]; dsimp only [dats]
theorem share3 (c : Dev nD) : (dats m 0 c).share 3 = fullShare := by
  unfold Pipeline.Dat.share; rw [if_pos (by decide)]
theorem share4 (c : Dev nD) : (dats m 0 c).share 4 = fullShare := by
  unfold Pipeline.Dat.share; rw [if_pos (by decide)]

/-- The pipeline's arrays as whole buffers at their shares. -/
theorem arrays_whole (c : Dev nD) (G : (w : Fin cfg0.W) → Buf (Elt F) ((cfg0.win w).arr.view.loc (c : Thread nD τ))) :
    ((dats m 0 c).arrays G : sProp 𝕄)
      = bigSep Finset.univ fun w : Fin 5 => (((c : Thread nD τ).loc (Pipeline.arrRef spec0 w)) ↦{(dats m 0 c).share w} G w : sProp 𝕄) := by
  unfold Pipeline.Dat.arrays
  exact bigSep_congr fun w _ => by rw [(arr_whole0 w).set_eq_univ]

/-- The pipeline's arrays, window by window: the first two hold the two halves of one buffer. -/
theorem arrays_five (c : Dev nD) (G : (w : Fin cfg0.W) → Buf (Elt F) ((cfg0.win w).arr.view.loc (c : Thread nD τ))) :
    ((dats m 0 c).arrays G : sProp 𝕄)
      = iprop((((c : Thread nD τ).loc main_v0) ↦{fullShare.left} G 0) ∗ (((c : Thread nD τ).loc main_v0) ↦{fullShare.right} G 1)
          ∗ (((c : Thread nD τ).loc main_v1) ↦{fullShare} G 2) ∗ (((c : Thread nD τ).loc main_v2_0) ↦{fullShare} G 3)
          ∗ (((c : Thread nD τ).loc main_v2_1) ↦{fullShare} G 4)) := by
  rw [arrays_whole, bigSep_W0, share0, share1, share2, share3, share4]

/-- The buffers behind the arrays, listed: four buffers for five windows. -/
theorem arrBufs_four (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2_0) ↦{fullShare} W main_v2_0) ∗ (((c : Thread nD τ).loc main_v2_1) ↦{fullShare} W main_v2_1)) := by
  unfold Pipeline.arrBufs
  exact bigSep_eq_bigSepL_of_eq [main_v0, main_v1, main_v2_0, main_v2_1] (by decide) (by decide) _

/-! ## The valuation the region leaves -/

/-- The entry contents with the two output arrays at what the write-backs left. -/
def V2 (c : Dev nD) : Valuation τ sig (Elt F) :=
  Function.update (Function.update (StableHlo.after hostOps0 (V₀ m c)) (Proc.devRef .tc main_v2_0) ((dats m 0 c).arrAt 3 cfg0.N))
    (Proc.devRef .tc main_v2_1) ((dats m 0 c).arrAt 4 cfg0.N)

theorem V2_v2_0 (c : Dev nD) : V2 m c (Proc.devRef .tc main_v2_0) = (dats m 0 c).arrAt 3 cfg0.N := by
  unfold V2
  rw [Function.update_of_ne (by decide), Function.update_self]

theorem V2_v2_1 (c : Dev nD) : V2 m c (Proc.devRef .tc main_v2_1) = (dats m 0 c).arrAt 4 cfg0.N := by
  unfold V2
  rw [Function.update_self]

theorem V2_of_ne (c : Dev nD) (b : Ref sig .tc) (h0 : b ≠ main_v2_0) (h1 : b ≠ main_v2_1) :
    V2 m c (Proc.devRef .tc b) = V m c b := by
  unfold V2
  rw [Function.update_of_ne (fun e => h1 (Proc.devRef_injective _ e)), Function.update_of_ne (fun e => h0 (Proc.devRef_injective _ e))]

/-! ## Entering and leaving the region -/

/-- ENTRY: every unscoped buffer at the entry contents is the windows' arrays at those contents — the first half of the
    input split between its two windows — and the buffers no window stages. -/
theorem entry_split (c : Dev nD) :
    (StableHlo.held (c : Thread nD τ) (Pipeline.ucRefs τ sig) (StableHlo.after hostOps0 (V₀ m c)) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  rw [← Pipeline.unscopedBufs_held (Ix := Unit) (Name := ℕ) (U := UR sig nD τ) (Lvl := ℕ) c (StableHlo.after hostOps0 (V₀ m c))]
  rw [show (unscopedBufs c (fun b => StableHlo.after hostOps0 (V₀ m c) b) : sProp 𝕄)
      = iprop((Pipeline.arrBufs spec0 c (V m c) : sProp 𝕄) ∗ Pipeline.unscopedRest spec0 c (V m c))
    from Pipeline.unscopedBufs_split₀ cfgs 0 winFacts₀0.arr_unscoped c (V m c)]
  rw [arrBufs_four, arrays_five]
  iintro ⟨⟨H0, H1, H2, H3⟩, HR⟩
  ihave H0' := (pointsTo_share (PosShare.mem_left_op_right fullShare)).1 $$ H0
  icases H0' with ⟨H0l, H0r⟩
  isplitr [HR]
  · isplitl [H0l]; · iexact H0l
    isplitl [H0r]; · iexact H0r
    isplitl [H1]; · iexact H1
    isplitl [H2]; · iexact H2
    iexact H3
  · iexact HR

/-- An input window's array ends at its entry contents. -/
theorem arrAt_in0 (c : Dev nD) : (dats m 0 c).arrAt 0 cfg0.N = V m c main_v0 :=
  ((dats m 0 c).arrAt_in 0 rfl _).trans (A_eq m c 0)
theorem arrAt_in1 (c : Dev nD) : (dats m 0 c).arrAt 1 cfg0.N = V m c main_v0 :=
  ((dats m 0 c).arrAt_in 1 rfl _).trans (A_eq m c 1)
theorem arrAt_in2 (c : Dev nD) : (dats m 0 c).arrAt 2 cfg0.N = V m c main_v1 :=
  ((dats m 0 c).arrAt_in 2 rfl _).trans (A_eq m c 2)

/-- EXIT: the windows' arrays at their final contents and the buffers no window stages are every unscoped buffer at the
    exit valuation — the two halves of the first half of the input, both at the entry contents, joined again. -/
theorem exit_join (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (V2 m c) : sProp 𝕄) := by
  rw [← Pipeline.unscopedBufs_held (Ix := Unit) (Name := ℕ) (U := UR sig nD τ) (Lvl := ℕ) c (V2 m c)]
  rw [show (unscopedBufs c (fun b => V2 m c b) : sProp 𝕄)
      = iprop((Pipeline.arrBufs spec0 c (fun b => V2 m c (Proc.devRef .tc b)) : sProp 𝕄) ∗ Pipeline.unscopedRest spec0 c (fun b => V2 m c (Proc.devRef .tc b)))
    from Pipeline.unscopedBufs_split₀ cfgs 0 winFacts₀0.arr_unscoped c (fun b => V2 m c (Proc.devRef .tc b))]
  rw [arrBufs_four, arrays_five]
  rw [show (Pipeline.unscopedRest spec0 c (fun b => V2 m c (Proc.devRef .tc b)) : sProp 𝕄) = Pipeline.unscopedRest spec0 c (V m c) from by
    unfold Pipeline.unscopedRest
    exact bigSep_congr fun b hb => by
      have hb' := (Finset.mem_sdiff.mp hb).2
      dsimp only
      rw [V2_of_ne m c b (fun e => hb' (Finset.mem_image.mpr ⟨3, Finset.mem_univ _, e ▸ rfl⟩))
        (fun e => hb' (Finset.mem_image.mpr ⟨4, Finset.mem_univ _, e ▸ rfl⟩))]]
  dsimp only
  rw [arrAt_in0, arrAt_in1, arrAt_in2, V2_v2_0, V2_v2_1, V2_of_ne m c main_v0 (by decide) (by decide), V2_of_ne m c main_v1 (by decide) (by decide)]
  iintro ⟨⟨H0l, H0r, H1, H2, H3⟩, HR⟩
  isplitr [HR]
  · isplitl [H0l H0r]
    · iapply (pointsTo_share (PosShare.mem_left_op_right fullShare)).2
      isplitl [H0l] <;> iassumption
    isplitl [H1]; · iexact H1
    isplitl [H2]; · iexact H2
    iexact H3
  · iexact HR

/-! ## @main as segments -/

/-- What rides beside the buffers: the core owes nothing. -/
abbrev R (c : Dev nD) : sProp 𝕄 := iprop(∃ W, owes (c : Thread nD τ) (0 : CellTallies nD τ sig Unit) W)

/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm
abbrev 𝒱₀ : Variants := Variants.none
/-- The pipeline library's algebra is the whole user component. -/
abbrev EP : Emb (UR sig nD τ) (MT nD τ sig Unit (Elt F) ℕ (UR sig nD τ) ℕ) := emb₁

/-- The two slices before the region, over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The seventeen operations after the region, from the exit valuation. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (V2 m) R

set_option backward.isDefEq.respectTransparency.types false in
/-- The region: the decided layout (the arrays' distinctness apart), no semaphore of the kernel's own, the body
    obligation; entered by `entry_split`, left by `exit_join`; nothing enters the invariant but the scoped rest. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) (Pipeline.ucRefs τ sig) (V2 m c) ∗ R c)
  X _ := iprop(emp)
  Y _ := iprop(emp)
  Z c := Pipeline.unscopedRest (Ix := Unit) (Name := ℕ) (U := UR sig nD τ) (Lvl := ℕ) spec0 c (V m c)
  hentry c := by
    iintro ⟨⟨Hub, HO⟩, -, -⟩
    have hE := entry_split m c
    ihave H := hE $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [HZ]; · iempintro
    iexact HZ
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    iintro ⟨Ha, HO, -, HZ⟩
    imodintro
    isplitr [HO]
    · iapply (exit_join m c)
      isplitl [Ha] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- The launch element: the pipeline library's at the staging cells. -/
def u₀ : UR sig nD τ := initOf (Pipeline.cells cfgs cellOf_inj) (Pipeline.launchToks cfgs cellOf_inj)

/-- The valuation when @main returns. -/
abbrev Vend (c : Dev nD) : Valuation τ sig (Elt F) := StableHlo.after hostOps1 (V2 m c)

/-- The run's post: every unscoped buffer holds its value under the last valuation. -/
def Post : PUnit × MemSt nD τ sig (Elt F) → Prop := fun r =>
  ∀ c : Dev nD, ∀ b ∈ Pipeline.ucRefs τ sig, r.2.mem ((c : Thread nD τ).1, b) = Vend m c b

set_option backward.isDefEq.respectTransparency.types false in
/-- At the compiled mesh, for any float values, from any memory with zero counters: every weakly fair execution of
    @main on the TensorCores terminates, and every final state has every unscoped buffer at the last valuation. -/
theorem run_main : θ_run defs (onTc (τ := τ) (main (F := F))) ⟨m, fun _ => 0, ρ⟩ (Post m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Vend m c b)
    (hfin := fun c s' => by
      unfold StableHlo.held
      iintro ⟨Hh, HSI⟩
      imodintro
      iapply (pointsTo_read_all (Pipeline.ucRefs τ sig) (fun b => ((c : Thread nD τ).1, b)) (Vend m c) s')
      isplitl [Hh] <;> iassumption)
    (hQ := fun _ h => h)

/-- info: 'Cert.KernelIdeal.Fr.run_main' depends on axioms: [propext, Classical.choice, Quot.sound] -/
#guard_msgs in #print axioms run_main

/-! ## The frame claim -/

/-- A TensorCore reference that is not scoped is among the buffers the run reads back. -/
theorem mem_ucRefs (b : Ref sig .tc) (h : (Proc.devRef (τ := τ) .tc b).isScoped = false) : Proc.devRef .tc b ∈ Pipeline.ucRefs τ sig :=
  Finset.mem_filter.mpr ⟨StableHlo.devRef_mem_tcRefs b, by rw [h]; exact Bool.false_ne_true⟩

/-- No operation of @main writes the argument: under the last valuation it is as launched. -/
theorem Vend_arg0 (c : Dev nD) : Vend m c (Proc.devRef .tc main_arg0) = m ((c : Thread nD τ).loc main_arg0) := by
  show StableHlo.after hostOps1 (V2 m c) (Proc.devRef .tc main_arg0) = _
  after_results
  rw [V2_of_ne m c main_arg0 (by decide) (by decide)]
  show StableHlo.after hostOps0 (V₀ m c) (Proc.devRef .tc main_arg0) = _
  after_results

/-- THE FRAME: the program runs to its end, nothing faults, and the argument array ends unchanged — at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => (h c (Proc.devRef .tc main_arg0) (mem_ucRefs main_arg0 rfl)).trans (Vend_arg0 m c)) (run_main m ρ)

end Cert.KernelIdeal.Fr

end
-- ==== Proof.KI.Final.lean ====
/-
  What the two output arrays hold when the region ends. Column block `j`'s output blocks are written back once, at the
  point of its last row block (`j · 8 + 7`), and the sixteen written blocks tile the 1 × 8192 arrays; so entry
  `(0, col)` of each array is entry `(0, col % 512)` of what that point left in the staging buffer.
-/
import proofs.«167629_j67070209294941_1_alg».proof.Proof.KI.Data
import Idealize.ShloMosaic.Lib.ValueIdx
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-- The grid point of column block `j`'s last row block. -/
def lastAt (j : Fin 16) : Fin cfg0.N := ⟨j.val * 8 + 7, by have : cfg0.N = 128 := N_0; omega⟩

/-- What output array 3 (the column maxima) and output array 4 (the column minima) end holding. -/
def G3 (c : Dev nD) : Vec F S1x8192 .f32 := fun i =>
  (outsAt m c (lastAt ⟨(i 1).val / 512, by have h : (i 1).val < 8192 := (i 1).isLt; omega⟩).val (lastAt _).isLt).1 (ix2 (0 : Fin 1) (⟨(i 1).val % 512, Nat.mod_lt _ (by omega)⟩ : Fin 512))
def G4 (c : Dev nD) : Vec F S1x8192 .f32 := fun i =>
  (outsAt m c (lastAt ⟨(i 1).val / 512, by have h : (i 1).val < 8192 := (i 1).isLt; omega⟩).val (lastAt _).isLt).2 (ix2 (0 : Fin 1) (⟨(i 1).val % 512, Nat.mod_lt _ (by omega)⟩ : Fin 512))

/-! ## Where the output blocks sit, and the points that write them back -/

/-- The two output windows' block index at point `t`: row block 0, column block `t / 8` (decided over the grid). -/
private theorem outIndex3 : ∀ t : Fin cfg0.N, win0_3.index t (0 : Fin 2) = 0 ∧ win0_3.index t (1 : Fin 2) = t.val / 8 :=
  (by decide +kernel : ∀ t : Fin grid0.N, _)
private theorem outIndex4 : ∀ t : Fin cfg0.N, win0_4.index t (0 : Fin 2) = 0 ∧ win0_4.index t (1 : Fin 2) = t.val / 8 :=
  (by decide +kernel : ∀ t : Fin grid0.N, _)

/-- The accumulation read at equal positions and equal block entries gives equal values. -/
private theorem outs_fst_congr (c : Dev nD) {n n' : ℕ} {h : n < cfg0.N} {h' : n' < cfg0.N} {y y' : S1x512.Idx}
    (e : n = n') (ey : y = y') : (outsAt m c n h).1 y = (outsAt m c n' h').1 y' := by
  subst e; subst ey; rfl
private theorem outs_snd_congr (c : Dev nD) {n n' : ℕ} {h : n < cfg0.N} {h' : n' < cfg0.N} {y y' : S1x512.Idx}
    (e : n = n') (ey : y = y') : (outsAt m c n h).2 y = (outsAt m c n' h').2 y' := by
  subst e; subst ey; rfl

/-- At a point `t ≡ 7 (mod 8)`, entry `y` of what the body left is entry `(0, (t / 8) · 512 + y₁)` of `G3`: that column's
    block is `t / 8`, whose last point `(t / 8) · 8 + 7` is `t`, and its position in the block is `y₁`. -/
private theorem left3_at (c : Dev nD) (t : Fin cfg0.N) (h7 : t.val % 8 = 7) (y : S1x512.Idx) :
    (outsAt m c t.val t.isLt).1 y = G3 m c (((cfg0.win 3).blk t).view.emb y) := by
  have hy1 : (y 1).val < 512 := (y 1).isLt
  have hy0 : (y 0).val < 1 := (y 0).isLt
  obtain ⟨e0, e1⟩ := outIndex3 t
  have he : ((((cfg0.win 3).blk t).view.emb y) 1).val = win0_3.index t (1 : Fin 2) * 512 + 1 * (y 1).val := rfl
  have hv : ((((cfg0.win 3).blk t).view.emb y) 1).val = (t.val / 8) * 512 + (y 1).val := by rw [he, e1]; omega
  unfold G3
  refine outs_fst_congr m c ?_ ?_
  · show t.val = ((((cfg0.win 3).blk t).view.emb y) 1).val / 512 * 8 + 7
    omega
  · funext a; apply Fin.ext
    match a with
    | ⟨0, _⟩ => show (y 0).val = 0; omega
    | ⟨1, _⟩ => show (y 1).val = ((((cfg0.win 3).blk t).view.emb y) 1).val % 512; omega
private theorem left4_at (c : Dev nD) (t : Fin cfg0.N) (h7 : t.val % 8 = 7) (y : S1x512.Idx) :
    (outsAt m c t.val t.isLt).2 y = G4 m c (((cfg0.win 4).blk t).view.emb y) := by
  have hy1 : (y 1).val < 512 := (y 1).isLt
  have hy0 : (y 0).val < 1 := (y 0).isLt
  obtain ⟨e0, e1⟩ := outIndex4 t
  have he : ((((cfg0.win 4).blk t).view.emb y) 1).val = win0_4.index t (1 : Fin 2) * 512 + 1 * (y 1).val := rfl
  have hv : ((((cfg0.win 4).blk t).view.emb y) 1).val = (t.val / 8) * 512 + (y 1).val := by rw [he, e1]; omega
  unfold G4
  refine outs_snd_congr m c ?_ ?_
  · show t.val = ((((cfg0.win 4).blk t).view.emb y) 1).val / 512 * 8 + 7
    omega
  · funext a; apply Fin.ext
    match a with
    | ⟨0, _⟩ => show (y 0).val = 0; omega
    | ⟨1, _⟩ => show (y 1).val = ((((cfg0.win 4).blk t).view.emb y) 1).val % 512; omega

/-- What a writing point writes back is its block of `G3` (`G4`): the output blocks lie whole inside their arrays, so
    the write-back moves all of what the body left. -/
private theorem flushed3_eq (c : Dev nD) (t : Fin cfg0.N) (hf : (cfg0.win 3).flush t = true) :
    (dats m 0 c).flushed 3 t = ((cfg0.win 3).blk t).view.read (Elt F) (G3 m c) := by
  have h7 : t.val % 8 = 7 := (flush0_3 t).mp hf
  show (cfg0.win 3).cut (grid0.coords t) ((dats m 0 c).after 3 t) = _
  rw [after3]
  funext y
  exact left3_at m c t h7 y
private theorem flushed4_eq (c : Dev nD) (t : Fin cfg0.N) (hf : (cfg0.win 4).flush t = true) :
    (dats m 0 c).flushed 4 t = ((cfg0.win 4).blk t).view.read (Elt F) (G4 m c) := by
  have h7 : t.val % 8 = 7 := (flush0_4 t).mp hf
  show (cfg0.win 4).cut (grid0.coords t) ((dats m 0 c).after 4 t) = _
  rw [after4]
  funext y
  exact left4_at m c t h7 y

/-- An entry of the array lies in point `t`'s block iff each coordinate lies in the block's range on its axis. -/
private theorem mem_outBlock3 (t : Fin cfg0.N) (i : S1x8192.Idx) :
    i ∈ ((cfg0.win 3).blk t).view.set ↔ ∀ a : Fin 2, win0_3.index t a * S1x512.size a ≤ (i a).val ∧ (i a).val < win0_3.index t a * S1x512.size a + S1x512.size a := by
  show i ∈ ((View.whole main_v2_0).slice (win0_3.rect t)).set ↔ _
  rw [View.set_slice_whole, Rect.mem_set_unit]
  exact Iff.rfl
private theorem mem_outBlock4 (t : Fin cfg0.N) (i : S1x8192.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v2_1).slice (win0_4.rect t)).set ↔ _
  rw [View.set_slice_whole, Rect.mem_set_unit]
  exact Iff.rfl

/-- The sixteen written blocks tile the array: column `col` lies in the block written at the last point of column
    block `col / 512`, since `(col / 512) · 512 ≤ col < (col / 512) · 512 + 512`. -/
private theorem cover3 (i : S1x8192.Idx) : ∃ t : Fin cfg0.N, (cfg0.win 3).flush t = true ∧ i ∈ ((cfg0.win 3).blk t).view.set := by
  have hi0 : (i 0).val < 1 := (i 0).isLt
  have hi1 : (i 1).val < 8192 := (i 1).isLt
  refine ⟨lastAt ⟨(i 1).val / 512, by omega⟩, (flush0_3 _).mpr (by show ((i 1).val / 512 * 8 + 7) % 8 = 7; omega), ?_⟩
  rw [mem_outBlock3]
  obtain ⟨e0, e1⟩ := outIndex3 (lastAt ⟨(i 1).val / 512, by omega⟩)
  have hl : (lastAt ⟨(i 1).val / 512, by omega⟩).val = (i 1).val / 512 * 8 + 7 := rfl
  intro a
  match a with
  | ⟨0, _⟩ => show win0_3.index _ (0 : Fin 2) * 1 ≤ (i 0).val ∧ (i 0).val < win0_3.index _ (0 : Fin 2) * 1 + 1; rw [e0]; omega
  | ⟨1, _⟩ => show win0_3.index _ (1 : Fin 2) * 512 ≤ (i 1).val ∧ (i 1).val < win0_3.index _ (1 : Fin 2) * 512 + 512; rw [e1, hl]; omega
private theorem cover4 (i : S1x8192.Idx) : ∃ t : Fin cfg0.N, (cfg0.win 4).flush t = true ∧ i ∈ ((cfg0.win 4).blk t).view.set := by
  have hi0 : (i 0).val < 1 := (i 0).isLt
  have hi1 : (i 1).val < 8192 := (i 1).isLt
  refine ⟨lastAt ⟨(i 1).val / 512, by omega⟩, (flush0_4 _).mpr (by show ((i 1).val / 512 * 8 + 7) % 8 = 7; omega), ?_⟩
  rw [mem_outBlock4]
  obtain ⟨e0, e1⟩ := outIndex4 (lastAt ⟨(i 1).val / 512, by omega⟩)
  have hl : (lastAt ⟨(i 1).val / 512, by omega⟩).val = (i 1).val / 512 * 8 + 7 := rfl
  intro a
  match a with
  | ⟨0, _⟩ => show win0_4.index _ (0 : Fin 2) * 1 ≤ (i 0).val ∧ (i 0).val < win0_4.index _ (0 : Fin 2) * 1 + 1; rw [e0]; omega
  | ⟨1, _⟩ => show win0_4.index _ (1 : Fin 2) * 512 ≤ (i 1).val ∧ (i 1).val < win0_4.index _ (1 : Fin 2) * 512 + 512; rw [e1, hl]; omega

/-! ## The arrays when the region ends -/

theorem final3 (c : Dev nD) : (dats m 0 c).arrAt 3 cfg0.N = G3 m c := by
  exact (dats m 0 c).arrAt_eq_of_cover 3 (G3 m c) (flushed3_eq m c) cover3

theorem final4 (c : Dev nD) : (dats m 0 c).arrAt 4 cfg0.N = G4 m c := by
  exact (dats m 0 c).arrAt_eq_of_cover 4 (G4 m c) (flushed4_eq m c) cover4

end Cert.KernelIdeal.Fr

end
-- ==== Proof.KI.Pieces.lean ====
/-
  What each case leaves in the output buffers, in terms of the body's arithmetic: the reset case leaves the entrywise
  combination of the reset value with the point's column value, the accumulating case the combination of what the buffer
  held with the point's column value — `max` for the first output, `min` for the second.
-/
import proofs.«167629_j67070209294941_1_alg».proof.Proof.KI.Data
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The offsets of a whole-block rectangle are zero on both axes. -/
private theorem hz00 : (![0, 0] : Fin 2 → Nat) = fun _ => 0 := funext fun a => by fin_cases a <;> rfl

theorem outA3_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) :
    outA3 c i arg2 harg2 arg3 harg3 arg4 harg4 arg5 harg5 arg6 harg6 hc x0 x1 x2 = k0_pay3 (k0_pay7 x0 x1) (k0_pay1 (F := F)) := by
  unfold outA3
  rw [View.read_writes_eq_canon _ _ _ (coverA3 c i arg2 harg2 arg3 harg3 arg4 harg4 arg5 harg5 arg6 harg6 hc x0 x1 x2)]
  unfold runA
  dsimp only
  sl_unfold_words
  rw [View.canon_cons_unit_zero (S := S1x512) hz00, View.readCov_unit_zero (S := S1x512) _ hz00]
  simp only [View.readAt_eq_ld, harg2.read_unread, harg3.read_unread, View.ld_unit_zero (S := S1024x256) hz00,
    View.ld_unit_zero (S := S512x256) hz00]

theorem outA4_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : cond i) (x0 : Vec F S1024x256 .f32) (x1 : Vec F S512x256 .f32) (x2 : Vec F S512x256 .f32) :
    outA4 c i arg2 harg2 arg3 harg3 arg4 harg4 arg5 harg5 arg6 harg6 hc x0 x1 x2 = k0_pay4 (k0_pay8 x0 x2) (k0_pay2 (F := F)) := by
  unfold outA4
  rw [View.read_writes_eq_canon _ _ _ (coverA4 c i arg2 harg2 arg3 harg3 arg4 harg4 arg5 harg5 arg6 harg6 hc x0 x1 x2)]
  unfold runA
  dsimp only
  sl_unfold_words
  rw [View.canon_cons_unit_zero (S := S1x512) hz00, View.readCov_unit_zero (S := S1x512) _ hz00]
  simp only [View.readAt_eq_ld, harg2.read_unread, harg4.read_unread, View.ld_unit_zero (S := S1024x256) hz00,
    View.ld_unit_zero (S := S512x256) hz00]

theorem outB3_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) :
    outB3 c i arg2 harg2 arg3 harg3 arg4 harg4 arg5 harg5 arg6 harg6 hc x0 x1 x2 xo3 xo4 = k0_pay3 (k0_pay7 x0 x1) xo3 := by
  unfold outB3
  rw [View.read_writes_eq_canon _ _ _ (coverB3 c i arg2 harg2 arg3 harg3 arg4 harg4 arg5 harg5 arg6 harg6 hc x0 x1 x2 xo3 xo4)]
  unfold runB
  dsimp only
  sl_unfold_words
  rw [View.canon_unit_zero (S := S1x512) hz00]
  simp only [View.readAt_eq_ld, harg2.read_unread, harg3.read_unread, harg5.read_unread, View.ld_unit_zero (S := S1024x256) hz00,
    View.ld_unit_zero (S := S512x256) hz00, View.ld_unit_zero (S := S1x512) hz00]

theorem outB4_eq (c : Dev nD) (i : grid0.Coords) (arg2 : Memref sig .tc .vmem S1024x256 .f32) (harg2 : arg2.IsWhole) (arg3 : Memref sig .tc .vmem S512x256 .f32) (harg3 : arg3.IsWhole) (arg4 : Memref sig .tc .vmem S512x256 .f32) (harg4 : arg4.IsWhole) (arg5 : Memref sig .tc .vmem S1x512 .f32) (harg5 : arg5.IsWhole) (arg6 : Memref sig .tc .vmem S1x512 .f32) (harg6 : arg6.IsWhole) (hc : ¬cond i) (x0 : Vec F S1024x256 .f32) (x1 : Vec F S512x256 .f32) (x2 : Vec F S512x256 .f32) (xo3 xo4 : Vec F S1x512 .f32) :
    outB4 c i arg2 harg2 arg3 harg3 arg4 harg4 arg5 harg5 arg6 harg6 hc x0 x1 x2 xo3 xo4 = k0_pay4 (k0_pay8 x0 x2) xo4 := by
  unfold outB4
  rw [View.read_writes_eq_canon _ _ _ (coverB4 c i arg2 harg2 arg3 harg3 arg4 harg4 arg5 harg5 arg6 harg6 hc x0 x1 x2 xo3 xo4)]
  unfold runB
  dsimp only
  sl_unfold_words
  rw [View.canon_unit_zero (S := S1x512) hz00]
  simp only [View.readAt_eq_ld, harg2.read_unread, harg4.read_unread, harg6.read_unread, View.ld_unit_zero (S := S1024x256) hz00,
    View.ld_unit_zero (S := S512x256) hz00, View.ld_unit_zero (S := S1x512) hz00]

end Cert.KernelIdeal.Fr

end
-- ==== Proof.KI.Blocks.lean ====
/-
  Each input window's block at grid point `t`, read at a row `p` and a position `k`, is the argument array at the row the
  point names: the point is (column block `t / 8`, row block `t % 8`); window 0 reads rows `(t % 8) · 1024 + p` of the
  first half of the argument, window 1 rows `(t / 8) · 512 + q` of the first half, window 2 the same rows of the second
  half (the argument's rows from 8192 on). The region finds the two halves as the host's two slices left them.
-/
import proofs.«167629_j67070209294941_1_alg».proof.Proof.KI.Base
import Idealize.ShloMosaic.Lib.ValueIdx
import Idealize.ShloMosaic.Lib.Pipeline.Value
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

/-- The argument array on core `c`, as launched. -/
abbrev xarr (c : Dev nD) : Vec F S16384x256 .f32 := m ((c : Thread nD τ).loc main_arg0)

/-! ## What the region finds in the two halves -/

/-- The first half as the region finds it: the host's slice of the argument's rows 0 … 8191. -/
private theorem V_v0 (c : Dev nD) : (V m c main_v0 : S8192x256.Idx → Elt F .f32)
    = extractStridedSlice S8192x256 ![0, 0] (xarr m c) slices_S16384x256_S8192x256_0_0 := by
  dsimp only [V]; after_results

/-- The second half as the region finds it: the host's slice of the argument's rows 8192 … 16383. -/
private theorem V_v1 (c : Dev nD) : (V m c main_v1 : S8192x256.Idx → Elt F .f32)
    = extractStridedSlice S8192x256 ![8192, 0] (xarr m c) slices_S16384x256_S8192x256_8192_0 := by
  dsimp only [V]; after_results

/-! ## The windows' index maps over the grid -/

/-- Window 0's block index at point `t` is (row block `t % 8`, 0): decided over the grid. -/
private theorem idx0 : ∀ t : Fin cfg0.N, win0_0.index t (0 : Fin 2) = t.val % 8 ∧ win0_0.index t (1 : Fin 2) = 0 :=
  (by decide +kernel : ∀ t : Fin grid0.N, _)
/-- Window 1's block index at point `t` is (column block `t / 8`, 0). -/
private theorem idx1 : ∀ t : Fin cfg0.N, win0_1.index t (0 : Fin 2) = t.val / 8 ∧ win0_1.index t (1 : Fin 2) = 0 :=
  (by decide +kernel : ∀ t : Fin grid0.N, _)
/-- Window 2's block index at point `t` is (column block `t / 8`, 0). -/
private theorem idx2 : ∀ t : Fin cfg0.N, win0_2.index t (0 : Fin 2) = t.val / 8 ∧ win0_2.index t (1 : Fin 2) = 0 :=
  (by decide +kernel : ∀ t : Fin grid0.N, _)

/-! ## The three input blocks at a row and a position -/

theorem iblk0_apply (c : Dev nD) (t : Fin cfg0.N) (p : Fin 1024) (k : Fin 256) :
    iblk m c 0 t (ix2 p k) = xarr m c (ix2 (⟨(t.val % 8) * 1024 + p.val, by omega⟩ : Fin 16384) k) := by
  obtain ⟨e0, e1⟩ := idx0 t
  unfold iblk
  rw [View.read_apply]
  show V m c main_v0 (((cfg0.win 0).blk t).view.emb (ix2 p k)) = _
  refine (congrFun (V_v0 m c) _).trans ?_
  refine extractStridedSlice_apply _ _ _ _ _ fun a => ?_
  match a with
  | ⟨0, _⟩ =>
    show (t.val % 8) * 1024 + p.val = 0 + (win0_0.index t (0 : Fin 2) * 1024 + 1 * p.val)
    rw [e0]; omega
  | ⟨1, _⟩ =>
    show k.val = 0 + (win0_0.index t (1 : Fin 2) * 256 + 1 * k.val)
    rw [e1]; omega

theorem iblk1_apply (c : Dev nD) (t : Fin cfg0.N) (q : Fin 512) (k : Fin 256) :
    iblk m c 1 t (ix2 q k) = xarr m c (ix2 (⟨(t.val / 8) * 512 + q.val, by have := t.isLt; have : cfg0.N = 128 := N_0; omega⟩ : Fin 16384) k) := by
  obtain ⟨e0, e1⟩ := idx1 t
  unfold iblk
  rw [View.read_apply]
  show V m c main_v0 (((cfg0.win 1).blk t).view.emb (ix2 q k)) = _
  refine (congrFun (V_v0 m c) _).trans ?_
  refine extractStridedSlice_apply _ _ _ _ _ fun a => ?_
  match a with
  | ⟨0, _⟩ =>
    show (t.val / 8) * 512 + q.val = 0 + (win0_1.index t (0 : Fin 2) * 512 + 1 * q.val)
    rw [e0]; omega
  | ⟨1, _⟩ =>
    show k.val = 0 + (win0_1.index t (1 : Fin 2) * 256 + 1 * k.val)
    rw [e1]; omega

theorem iblk2_apply (c : Dev nD) (t : Fin cfg0.N) (q : Fin 512) (k : Fin 256) :
    iblk m c 2 t (ix2 q k) = xarr m c (ix2 (⟨(t.val / 8) * 512 + q.val + 8192, by have := t.isLt; have : cfg0.N = 128 := N_0; omega⟩ : Fin 16384) k) := by
  obtain ⟨e0, e1⟩ := idx2 t
  unfold iblk
  rw [View.read_apply]
  show V m c main_v1 (((cfg0.win 2).blk t).view.emb (ix2 q k)) = _
  refine (congrFun (V_v1 m c) _).trans ?_
  refine extractStridedSlice_apply _ _ _ _ _ fun a => ?_
  match a with
  | ⟨0, _⟩ =>
    show (t.val / 8) * 512 + q.val + 8192 = 8192 + (win0_2.index t (0 : Fin 2) * 512 + 1 * q.val)
    rw [e0]; omega
  | ⟨1, _⟩ =>
    show k.val = 0 + (win0_2.index t (1 : Fin 2) * 256 + 1 * k.val)
    rw [e1]; omega

end Cert.KernelIdeal.Fr

end
-- ==== Proof.Spec.lean ====
/-
  The mathematics both programs compute, stated once over plain row functions.

  For two families of rows `u i`, `v j` in dimension 256 the distance entry is
  `dist u v i j = sqrt (max ((|u i|² + |v j|²) - 2 · ⟨u i, v j⟩) 0)` on the extended reals, the grouping being the one
  both programs use. `colMax` is the maximum of a column of that matrix over all rows `i` and `colMin` its minimum,
  each written as the fold of `max` (`min`) from a start value `c`. The start values the programs use are the two
  infinities, but nothing below needs to know that: `max` and `min` are idempotent, commutative and associative, so
  a fold over all rows from `c` is the running combination, block of rows after block of rows, of the folds over each
  block from the same `c` (`accMax_last`, `accMin_last`).
-/
import Idealize.ShloMosaic.PureOps.Ideal
import Idealize.ShloMosaic.PureOps.Ideal.Laws
import Idealize.ShloMosaic.Lib.ValueIdx

noncomputable section

namespace Cert.Triplet

open Idealize.ShloMosaic Idealize.ShloMosaic.ValueIdx
open scoped BigOperators

/-- The literal `2.0`, `0.0`, `-inf` and `+inf` as the programs spell them. -/
abbrev two : EReal := Ideal.ofBits .f32 0x40000000#32
abbrev zero : EReal := Ideal.ofBits .f32 0x00000000#32
abbrev ninf : EReal := Ideal.ofBits .f32 0xFF800000#32
abbrev pinf : EReal := Ideal.ofBits .f32 0x7F800000#32

/-- The rows of an `n × 256` block or array, as a function of the row and the position in it. -/
def rows {n : Nat} (v : (⟨2, ![n, 256]⟩ : Shape).Idx → EReal) (r : Fin n) (k : Fin 256) : EReal := v (ix2 r k)

/-- The squared norm of row `r`. -/
def sqn {n : Nat} (u : Fin n → Fin 256 → EReal) (r : Fin n) : EReal := ∑ k : Fin 256, u r k * u r k

/-- The inner product of row `i` of `u` and row `j` of `v`. -/
def dotp {m n : Nat} (u : Fin m → Fin 256 → EReal) (v : Fin n → Fin 256 → EReal) (i : Fin m) (j : Fin n) : EReal :=
  ∑ k : Fin 256, u i k * v j k

/-- The distance entry, grouped as both programs group it. -/
def dist {m n : Nat} (u : Fin m → Fin 256 → EReal) (v : Fin n → Fin 256 → EReal) (i : Fin m) (j : Fin n) : EReal :=
  Ideal.sqrt (max ((sqn u i + sqn v j) - two * dotp u v i j) zero)

/-- The maximum over every row `i` of column `j`, folded from `c`. -/
def colMax {m n : Nat} (c : EReal) (u : Fin m → Fin 256 → EReal) (v : Fin n → Fin 256 → EReal) (j : Fin n) : EReal :=
  (Finset.univ : Finset (Fin m)).fold max c (fun i => dist u v i j)

/-- The minimum over every row `i` of column `j`, folded from `c`. -/
def colMin {m n : Nat} (c : EReal) (u : Fin m → Fin 256 → EReal) (v : Fin n → Fin 256 → EReal) (j : Fin n) : EReal :=
  (Finset.univ : Finset (Fin m)).fold min c (fun i => dist u v i j)

/-! ## A fold over 8192 rows is the running combination of eight folds over 1024 rows -/

/-- Row `p` of block `b`. -/
def brow (b : Fin 8) (p : Fin 1024) : Fin 8192 := ⟨b.val * 1024 + p.val, by omega⟩

/-- The fold of `max` from `c` over block `b` of `f`. -/
def blockMax (c : EReal) (f : Fin 8192 → EReal) (b : Fin 8) : EReal :=
  (Finset.univ : Finset (Fin 1024)).fold max c (fun p => f (brow b p))

/-- The fold of `min` from `c` over block `b` of `f`. -/
def blockMin (c : EReal) (f : Fin 8192 → EReal) (b : Fin 8) : EReal :=
  (Finset.univ : Finset (Fin 1024)).fold min c (fun p => f (brow b p))

/-- The running maximum after blocks `0 … n`: it starts at `c` and takes in one block's fold after another. -/
def accMax (c : EReal) (f : Fin 8192 → EReal) : (n : Nat) → n < 8 → EReal
  | 0, h => max c (blockMax c f ⟨0, h⟩)
  | n + 1, h => max (accMax c f n (Nat.lt_of_succ_lt h)) (blockMax c f ⟨n + 1, h⟩)

/-- The running minimum after blocks `0 … n`. -/
def accMin (c : EReal) (f : Fin 8192 → EReal) : (n : Nat) → n < 8 → EReal
  | 0, h => min c (blockMin c f ⟨0, h⟩)
  | n + 1, h => min (accMin c f n (Nat.lt_of_succ_lt h)) (blockMin c f ⟨n + 1, h⟩)

/-! ## The two halves of the input, and what both programs do with the two columns -/

abbrev A16384x256 : Shape := ⟨2, ![16384, 256]⟩
abbrev A8192 : Shape := ⟨1, ![8192]⟩
abbrev A_ : Shape := ⟨0, ![]⟩

/-- Row `r` of the first half of the input (the "normal" rows), -/
def nrow (x : A16384x256.Idx → EReal) (r : Fin 8192) (k : Fin 256) : EReal := x (ix2 (⟨r.val, by omega⟩ : Fin 16384) k)
/-- and of the second half (the "abnormal" rows). -/
def arow (x : A16384x256.Idx → EReal) (r : Fin 8192) (k : Fin 256) : EReal := x (ix2 (⟨r.val + 8192, by omega⟩ : Fin 16384) k)

/-- The column maxima of the normal-normal distances and the column minima of the normal-abnormal ones, as vectors. -/
def maxVec (x : A16384x256.Idx → EReal) : A8192.Idx → EReal := fun j => colMax ninf (nrow x) (nrow x) (j 0)
def minVec (x : A16384x256.Idx → EReal) : A8192.Idx → EReal := fun j => colMin pinf (nrow x) (arow x) (j 0)

/-- What both programs compute from the two vectors: the mean of the maxima plus the mean of `max (100 - minimum) 0`,
    spelt with the host's own operations so that neither side has to open it. -/
def tail (hred : A8192.ReducesTo [0] A_) (hpos : 0 < A_.numel) (hb : A_.BroadcastsInDim A8192 (![] : Fin 0 → Fin A8192.rank))
    (M m : FVec Ideal A8192 .f32) : FVec Ideal A_ .f32 :=
  addf (Host.divf (Host.reduceAdd M (constant (F := Ideal) A_ .f32 0x00000000#32) hred hpos) (constant (F := Ideal) A_ .f32 0x46000000#32))
    (Host.divf (Host.reduceAdd (maximumf (subf (broadcastInDim A8192 ![] hb (constant (F := Ideal) A_ .f32 0x42C80000#32)) m)
        (broadcastInDim A8192 ![] hb (constant (F := Ideal) A_ .f32 0x00000000#32))) (constant (F := Ideal) A_ .f32 0x00000000#32) hred hpos)
      (constant (F := Ideal) A_ .f32 0x46000000#32))

end Cert.Triplet

end
-- ==== Proof.KPay.lean ====
/-
  The kernel body's arithmetic, read at one index over the extended reals: what one grid point computes from its three
  input blocks is, per column `q` of the block, the fold of `max` over the block's 1024 rows of the distance
  entries against the "normal" column block (from `-inf`), and the fold of `min` against the "abnormal" one (from
  `+inf`); the stores then combine these with what the output block held.
-/
import proofs.«167629_j67070209294941_1_alg».proof.Proof.Gen.KernelIdeal.Skeleton
import proofs.«167629_j67070209294941_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Triplet

/-- The reset values: every entry `-inf`, every entry `+inf`. -/
theorem pay1_apply (i : S1x512.Idx) : k0_pay1 (F := Ideal) i = ninf := rfl

theorem pay2_apply (i : S1x512.Idx) : k0_pay2 (F := Ideal) i = pinf := rfl

/-- The accumulating stores: the entrywise `max` (`min`) of what the block held and the point's column value. -/
theorem pay3_apply (v38 : FVec Ideal S1x512 .f32) (v44 : Vec Ideal S1x512 .f32) (i : S1x512.Idx) :
    k0_pay3 (F := Ideal) v38 v44 i = max (v44 i) (v38 i) := by
  unfold k0_pay3
  rw [shapeCast_self]
  rfl

theorem pay4_apply (v40 : FVec Ideal S1x512 .f32) (v48 : Vec Ideal S1x512 .f32) (i : S1x512.Idx) :
    k0_pay4 (F := Ideal) v40 v48 i = min (v48 i) (v40 i) := by
  unfold k0_pay4
  rw [shapeCast_self]
  rfl

/-! ## Two layout operations read at an index: a vector viewed as a column, and a column spread over a matrix's columns -/

/-- An `[a]` array cast to `[a, 1]` reads, at `(i, u)`, the operand at `i`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector at an index is the extended reals' square root of the element. -/
private theorem sqrt_apply {s : Shape} {φ : FTy} (a : FVec Ideal s φ) (i : s.Idx) : sqrt a i = Ideal.sqrt (a i) := rfl

/-! ## The squared norms of the rows, as the body computes and lays them out -/

/-- The sum over a row of the entrywise square of a `1024 × 256` block is the row's squared norm. -/
private theorem rowSq1024 (v : FVec Ideal S1024x256 .f32) (r : Fin 1024) :
    multiReduction (F := Ideal) .add [1] S1024 (mulf v v) 0x00000000#32 reduces_S1024x256_S1024 (.inl rfl) rfl (ix1 r)
      = sqn (rows v) r := by
  refine (Ideal.multiReduction_add_single (mulf v v) 0x00000000#32 reduces_S1024x256_S1024 (.inl rfl) rfl (ix1 r)).trans ?_
  unfold sqn rows
  refine Finset.sum_congr rfl fun k _ => ?_
  have hl : reduces_S1024x256_S1024.lift (ix1 r) k = ix2 r k :=
    funext fun a => Fin.ext (by match a with | ⟨0, _⟩ => rfl | ⟨1, _⟩ => rfl)
  rw [hl]
  rfl

/-- The same for a `512 × 256` block. -/
private theorem rowSq512 (v : FVec Ideal S512x256 .f32) (r : Fin 512) :
    multiReduction (F := Ideal) .add [1] S512 (mulf v v) 0x00000000#32 reduces_S512x256_S512 (.inl rfl) rfl (ix1 r)
      = sqn (rows v) r := by
  refine (Ideal.multiReduction_add_single (mulf v v) 0x00000000#32 reduces_S512x256_S512 (.inl rfl) rfl (ix1 r)).trans ?_
  unfold sqn rows
  refine Finset.sum_congr rfl fun k _ => ?_
  have hl : reduces_S512x256_S512.lift (ix1 r) k = ix2 r k :=
    funext fun a => Fin.ext (by match a with | ⟨0, _⟩ => rfl | ⟨1, _⟩ => rfl)
  rw [hl]
  rfl

/-- The row block's squared norms, laid out as a column and spread over the 512 columns: entry `(p, q)` is row `p`'s. -/
private theorem normCol_apply (v : FVec Ideal S1024x256 .f32) (p : Fin 1024) (q : Fin 512) :
    broadcastTo S1024x512 (shapeCast S1024x1
        (multiReduction (F := Ideal) .add [1] S1024 (mulf v v) 0x00000000#32 reduces_S1024x256_S1024 (.inl rfl) rfl)
        shapeCasts_S1024_S1024x1) broadcasts_S1024x1_S1024x512 (ix2 p q) = sqn (rows v) p := by
  refine (broadcastTo_a1_ab_apply _ broadcasts_S1024x1_S1024x512 p q).trans ?_
  refine (shapeCast_a_a1_apply _ shapeCasts_S1024_S1024x1 p (0 : Fin 1)).trans ?_
  exact rowSq1024 v p

/-- The column block's squared norms, laid out as a row and spread over the 1024 rows: entry `(p, q)` is row `q`'s. -/
private theorem normRow_apply (v : FVec Ideal S512x256 .f32) (p : Fin 1024) (q : Fin 512) :
    broadcastTo S1024x512 (shapeCast S1x512
        (multiReduction (F := Ideal) .add [1] S512 (mulf v v) 0x00000000#32 reduces_S512x256_S512 (.inl rfl) rfl)
        shapeCasts_S512_S1x512) broadcasts_S1x512_S1024x512 (ix2 p q) = sqn (rows v) q := by
  refine (broadcastTo_1b_ab_apply _ broadcasts_S1x512_S1024x512 p q).trans ?_
  refine (shapeCast_a_1a_apply _ shapeCasts_S512_S1x512 (0 : Fin 1) q).trans ?_
  exact rowSq512 v q

/-! ## The product of the row block with the transposed column block -/

private theorem lhs_dot_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
private theorem lhs_dot_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
private theorem rhs_dot_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
private theorem rhs_dot_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product into a zero accumulator, at `(p, q)`: the sum over the 256 positions of row `p` of the left operand
    against column `q` of the right one. -/
private theorem matmul_zero_apply (x : FVec Ideal S1024x256 .f32) (y : FVec Ideal S256x512 .f32) (p : Fin 1024) (q : Fin 512) :
    matmul (F := Ideal) dot_S1024x256_S256x512_S1024x512_1_0_0_1_n_n none x y
        (constant (F := Ideal) S1024x512 .f32 0x00000000#32) (ix2 p q)
      = ∑ k : Fin 256, x (ix2 p k) * y (ix2 k q) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x512_S1024x512_1_0_0_1_n_n.rhsIdx (ix2 p q) ((contrEquiv1 dot_S1024x256_S256x512_S1024x512_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er]

/-- Against the transposed column block, entry `(p, q)` of the product is the inner product of row `p` of the row
    block and row `q` of the column block. -/
private theorem gram_apply (x : FVec Ideal S1024x256 .f32) (v : FVec Ideal S512x256 .f32) (p : Fin 1024) (q : Fin 512) :
    matmul (F := Ideal) dot_S1024x256_S256x512_S1024x512_1_0_0_1_n_n none x
        (transpose S256x512 [1, 0] v transposes_S512x256_p1_0_S256x512)
        (constant (F := Ideal) S1024x512 .f32 0x00000000#32) (ix2 p q)
      = dotp (rows x) (rows v) p q := by
  refine (matmul_zero_apply x _ p q).trans ?_
  unfold dotp rows
  refine Finset.sum_congr rfl fun k _ => ?_
  rw [transpose_ix2_apply v transposes_S512x256_p1_0_S256x512 k q]

/-! ## One distance entry, and the two column folds -/

/-- Entry `(p, q)` of the distance matrix as the body computes it from the row block `x` and a column block `v`. -/
private theorem dist_apply (x : FVec Ideal S1024x256 .f32) (v : FVec Ideal S512x256 .f32) (p : Fin 1024) (q : Fin 512) :
    sqrt (maximumf (subf
        (addf
          (broadcastTo S1024x512 (shapeCast S1024x1
            (multiReduction (F := Ideal) .add [1] S1024 (mulf x x) 0x00000000#32 reduces_S1024x256_S1024 (.inl rfl) rfl)
            shapeCasts_S1024_S1024x1) broadcasts_S1024x1_S1024x512)
          (broadcastTo S1024x512 (shapeCast S1x512
            (multiReduction (F := Ideal) .add [1] S512 (mulf v v) 0x00000000#32 reduces_S512x256_S512 (.inl rfl) rfl)
            shapeCasts_S512_S1x512) broadcasts_S1x512_S1024x512))
        (mulf (broadcast S1024x512 (Scalar.ofBits (F := Ideal) .f32 0x40000000#32))
          (matmul (F := Ideal) dot_S1024x256_S256x512_S1024x512_1_0_0_1_n_n none x
            (transpose S256x512 [1, 0] v transposes_S512x256_p1_0_S256x512)
            (constant (F := Ideal) S1024x512 .f32 0x00000000#32))))
        (broadcast S1024x512 (Scalar.ofBits (F := Ideal) .f32 0x00000000#32))) (ix2 p q)
      = dist (rows x) (rows v) p q := by
  rw [sqrt_apply, maximumf_apply, subf_apply, addf_apply, mulf_apply, broadcast_apply, broadcast_apply,
    normCol_apply, normRow_apply, gram_apply]
  rfl

/-- The lift of a column index into the `1024 × 512` matrix along the rows. -/
private theorem lift_col (q : Fin 512) (p : Fin 1024) :
    reduces_S1024x512_S512.lift (ix1 q) p = ix2 p q :=
  funext fun a => Fin.ext (by match a with | ⟨0, _⟩ => rfl | ⟨1, _⟩ => rfl)

/-- A `minimumf` reduction over one axis at the extended reals: the fold of `min` from the accumulator's value over that
    axis's coordinates. -/
private theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

private theorem pay7_aux (v0 : FVec Ideal S1024x256 .f32) (v2 : FVec Ideal S512x256 .f32) (q : Fin 512) :
    k0_pay7 (F := Ideal) v0 v2 (ix2 (0 : Fin 1) q) = colMax ninf (rows v0) (rows v2) q := by
  unfold k0_pay7 k0_pay6 k0_pay5
  simp only [shapeCast_self]
  refine (shapeCast_a_1a_apply _ shapeCasts_S512_S1x512 (0 : Fin 1) q).trans ?_
  refine (Ideal.multiReduction_maximumf_single (φ := .f32) _ 0xFF800000#32 reduces_S1024x512_S512 (.inl rfl) rfl (ix1 q)).trans ?_
  unfold colMax
  refine Finset.fold_congr fun p _ => ?_
  exact (congrArg (sqrt _) (lift_col q p)).trans (dist_apply v0 v2 p q)

private theorem pay8_aux (v0 : FVec Ideal S1024x256 .f32) (v4 : FVec Ideal S512x256 .f32) (q : Fin 512) :
    k0_pay8 (F := Ideal) v0 v4 (ix2 (0 : Fin 1) q) = colMin pinf (rows v0) (rows v4) q := by
  unfold k0_pay8 k0_pay6 k0_pay5
  simp only [shapeCast_self]
  refine (shapeCast_a_1a_apply _ shapeCasts_S512_S1x512 (0 : Fin 1) q).trans ?_
  refine (multiReduction_minimumf_single (φ := .f32) _ 0x7F800000#32 reduces_S1024x512_S512 (.inl rfl) rfl (ix1 q)).trans ?_
  unfold colMin
  refine Finset.fold_congr fun p _ => ?_
  exact (congrArg (sqrt _) (lift_col q p)).trans (dist_apply v0 v4 p q)

/-- Column `q` of the point's maximum: the fold of `max` from `-inf` over the 1024 rows of the row block `v0` of the
    distances to row `q` of the column block `v2`. -/
theorem pay7_apply (v0 : Vec Ideal S1024x256 .f32) (v2 : Vec Ideal S512x256 .f32) (q : Fin 512) :
    k0_pay7 (F := Ideal) v0 v2 (ix2 (0 : Fin 1) q) = colMax ninf (rows v0) (rows v2) q :=
  pay7_aux v0 v2 q

/-- Column `q` of the point's minimum, likewise with `min` from `+inf` against the column block `v4`. -/
theorem pay8_apply (v0 : Vec Ideal S1024x256 .f32) (v4 : Vec Ideal S512x256 .f32) (q : Fin 512) :
    k0_pay8 (F := Ideal) v0 v4 (ix2 (0 : Fin 1) q) = colMin pinf (rows v0) (rows v4) q :=
  pay8_aux v0 v4 q

end Cert.KernelIdeal.Pay

end
-- ==== Proof.BlockFold.lean ====
/-
  The one law the kernel's row-block accumulation rests on: `max` (`min`) being idempotent, commutative and
  associative, the fold over all 8192 rows from `c` is the running combination of the eight folds over 1024 rows,
  each from the same `c`, started at `c`.

  Both sides are compared through their universal properties. A fold of `max` from `c` over an index set lies below
  `x` exactly when `c` and every folded value lie below `x`; so the running maximum after blocks `0 … n` lies below
  `x` exactly when `c` does and every row of every block `b ≤ n` does. Every row index `i` is row `i % 1024` of block
  `i / 1024`, so at `n = 7` these are the upper bounds of the fold over all rows, and two elements of a partial order
  with the same upper bounds are equal. The minimum is the same text with the order reversed.
-/
import proofs.«167629_j67070209294941_1_alg».proof.Proof.Spec

noncomputable section

namespace Cert.Triplet

/-- Every row index is row `i % 1024` of block `i / 1024`. -/
private theorem brow_div_mod (i : Fin 8192) :
    brow ⟨i.val / 1024, by omega⟩ ⟨i.val % 1024, by omega⟩ = i := by
  apply Fin.ext
  simp only [brow]
  omega

/-- The upper bounds of the running maximum after blocks `0 … n`: those of `c` and of every row of those blocks. -/
private theorem accMax_le_iff (c : EReal) (f : Fin 8192 → EReal) (x : EReal) :
    ∀ (n : Nat) (h : n < 8), accMax c f n h ≤ x ↔
      c ≤ x ∧ ∀ b : Fin 8, b.val ≤ n → ∀ p : Fin 1024, f (brow b p) ≤ x := by
  intro n
  induction n with
  | zero =>
    intro h
    rw [accMax, max_le_iff, blockMax, Finset.fold_max_le]
    constructor
    · rintro ⟨hc, -, hp⟩
      refine ⟨hc, fun b hb p => ?_⟩
      have hb0 : b = ⟨0, h⟩ := Fin.ext (by simpa using hb)
      subst hb0
      exact hp p (Finset.mem_univ p)
    · rintro ⟨hc, hp⟩
      exact ⟨hc, hc, fun p _ => hp ⟨0, h⟩ (le_refl _) p⟩
  | succ n ih =>
    intro h
    rw [accMax, max_le_iff, ih, blockMax, Finset.fold_max_le]
    constructor
    · rintro ⟨⟨hc, hlo⟩, -, hp⟩
      refine ⟨hc, fun b hb p => ?_⟩
      rcases Nat.lt_or_ge b.val (n + 1) with hlt | hge
      · exact hlo b (Nat.le_of_lt_succ hlt) p
      · have hbn : b = ⟨n + 1, h⟩ := Fin.ext (by simp only; omega)
        subst hbn
        exact hp p (Finset.mem_univ p)
    · rintro ⟨hc, hp⟩
      exact ⟨⟨hc, fun b hb p => hp b (Nat.le_succ_of_le hb) p⟩, hc, fun p _ => hp ⟨n + 1, h⟩ (le_refl _) p⟩

/-- The lower bounds of the running minimum after blocks `0 … n`: those of `c` and of every row of those blocks. -/
private theorem le_accMin_iff (c : EReal) (f : Fin 8192 → EReal) (x : EReal) :
    ∀ (n : Nat) (h : n < 8), x ≤ accMin c f n h ↔
      x ≤ c ∧ ∀ b : Fin 8, b.val ≤ n → ∀ p : Fin 1024, x ≤ f (brow b p) := by
  intro n
  induction n with
  | zero =>
    intro h
    rw [accMin, le_min_iff, blockMin, Finset.le_fold_min]
    constructor
    · rintro ⟨hc, -, hp⟩
      refine ⟨hc, fun b hb p => ?_⟩
      have hb0 : b = ⟨0, h⟩ := Fin.ext (by simpa using hb)
      subst hb0
      exact hp p (Finset.mem_univ p)
    · rintro ⟨hc, hp⟩
      exact ⟨hc, hc, fun p _ => hp ⟨0, h⟩ (le_refl _) p⟩
  | succ n ih =>
    intro h
    rw [accMin, le_min_iff, ih, blockMin, Finset.le_fold_min]
    constructor
    · rintro ⟨⟨hc, hlo⟩, -, hp⟩
      refine ⟨hc, fun b hb p => ?_⟩
      rcases Nat.lt_or_ge b.val (n + 1) with hlt | hge
      · exact hlo b (Nat.le_of_lt_succ hlt) p
      · have hbn : b = ⟨n + 1, h⟩ := Fin.ext (by simp only; omega)
        subst hbn
        exact hp p (Finset.mem_univ p)
    · rintro ⟨hc, hp⟩
      exact ⟨⟨hc, fun b hb p => hp b (Nat.le_succ_of_le hb) p⟩, hc, fun p _ => hp ⟨n + 1, h⟩ (le_refl _) p⟩

/-- After the last block the running maximum is the fold over every row. -/
theorem accMax_last (c : EReal) (f : Fin 8192 → EReal) :
    accMax c f 7 (by omega) = (Finset.univ : Finset (Fin 8192)).fold max c f := by
  refine eq_of_forall_ge_iff fun x => ?_
  rw [accMax_le_iff, Finset.fold_max_le]
  constructor
  · rintro ⟨hc, hp⟩
    refine ⟨hc, fun i _ => ?_⟩
    have hi := hp ⟨i.val / 1024, by omega⟩ (by simp only; omega) ⟨i.val % 1024, by omega⟩
    rwa [brow_div_mod] at hi
  · rintro ⟨hc, hp⟩
    exact ⟨hc, fun b _ p => hp (brow b p) (Finset.mem_univ _)⟩

/-- After the last block the running minimum is the fold over every row. -/
theorem accMin_last (c : EReal) (f : Fin 8192 → EReal) :
    accMin c f 7 (by omega) = (Finset.univ : Finset (Fin 8192)).fold min c f := by
  refine eq_of_forall_le_iff fun x => ?_
  rw [le_accMin_iff, Finset.le_fold_min]
  constructor
  · rintro ⟨hc, hp⟩
    refine ⟨hc, fun i _ => ?_⟩
    have hi := hp ⟨i.val / 1024, by omega⟩ (by simp only; omega) ⟨i.val % 1024, by omega⟩
    rwa [brow_div_mod] at hi
  · rintro ⟨hc, hp⟩
    exact ⟨hc, fun b _ p => hp (brow b p) (Finset.mem_univ _)⟩

end Cert.Triplet

end
-- ==== Proof.KI.Accum.lean ====
/-
  The accumulation, over the extended reals: after the body at grid point `t` (column block `t / 8`, row block `t % 8`)
  entry `q` of the first output block is the running maximum, over the row blocks `0 … t % 8`, of the distances from the
  "normal" rows to "normal" row `(t / 8) · 512 + q`, started at `-inf`; and entry `q` of the second output block is the
  running minimum of the distances to "abnormal" row `(t / 8) · 512 + q`, started at `+inf`.
-/
import proofs.«167629_j67070209294941_1_alg».proof.Proof.KI.Pieces
import proofs.«167629_j67070209294941_1_alg».proof.Proof.KI.Blocks
import proofs.«167629_j67070209294941_1_alg».proof.Proof.KPay
import proofs.«167629_j67070209294941_1_alg».proof.Proof.BlockFold

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

open Idealize.ShloMosaic.ValueIdx Cert.Triplet

/-- The distances from every "normal" row to "normal" row `col`, and to "abnormal" row `col`. -/
def distN (c : Dev nD) (col : Fin 8192) : Fin 8192 → EReal := fun r => dist (nrow (xarr m c)) (nrow (xarr m c)) r col
def distA (c : Dev nD) (col : Fin 8192) : Fin 8192 → EReal := fun r => dist (nrow (xarr m c)) (arow (xarr m c)) r col

/-- The column of the whole array that entry `q` of point `t`'s output blocks belongs to. -/
def colOf (t : Fin cfg0.N) (q : Fin 512) : Fin 8192 := ⟨(t.val / 8) * 512 + q.val, by have := t.isLt; have : cfg0.N = 128 := N_0; omega⟩

/-! ## The distance entry reads one row of each family -/

/-- A distance entry depends on the first family only through its row `i` and on the second only through its row `j`. -/
private theorem dist_congr {a b a' b' : ℕ} (u : Fin a → Fin 256 → EReal) (v : Fin b → Fin 256 → EReal)
    (u' : Fin a' → Fin 256 → EReal) (v' : Fin b' → Fin 256 → EReal) (i : Fin a) (j : Fin b) (i' : Fin a') (j' : Fin b')
    (hu : u i = u' i') (hv : v j = v' j') : dist u v i j = dist u' v' i' j' := by
  unfold Triplet.dist sqn dotp
  rw [hu, hv]

/-- The running maximum does not depend on how its block count is written. -/
private theorem accMax_congr (c : EReal) (f : Fin 8192 → EReal) {n n' : ℕ} (e : n = n') (h : n < 8) (h' : n' < 8) :
    accMax c f n h = accMax c f n' h' := by
  subst e; rfl

/-- Nor does the running minimum. -/
private theorem accMin_congr (c : EReal) (f : Fin 8192 → EReal) {n n' : ℕ} (e : n = n') (h : n < 8) (h' : n' < 8) :
    accMin c f n h = accMin c f n' h' := by
  subst e; rfl

/-! ## The three input blocks at a point, as rows of the argument -/

/-- The three input blocks at point `t`, at their literal shapes. -/
private abbrev blk0 (c : Dev nD) (t : Fin cfg0.N) : Vec Ideal S1024x256 .f32 := iblk m c 0 t
private abbrev blk1 (c : Dev nD) (t : Fin cfg0.N) : Vec Ideal S512x256 .f32 := iblk m c 1 t
private abbrev blk2 (c : Dev nD) (t : Fin cfg0.N) : Vec Ideal S512x256 .f32 := iblk m c 2 t

/-- Row `p` of the row block at point `t` is "normal" row `p` of row block `t % 8`. -/
private theorem rows_blk0 (c : Dev nD) (t : Fin cfg0.N) (b : Fin 8) (hb : b.val = t.val % 8) (p : Fin 1024) :
    rows (blk0 m c t) p = nrow (xarr m c) (brow b p) := by
  funext k
  refine (iblk0_apply m c t p k).trans (congrArg (fun r : Fin 16384 => xarr m c (ix2 r k)) (Fin.ext ?_))
  show (t.val % 8) * 1024 + p.val = b.val * 1024 + p.val
  rw [hb]

/-- Row `q` of the first column block at point `t` is "normal" row `colOf t q`. -/
private theorem rows_blk1 (c : Dev nD) (t : Fin cfg0.N) (q : Fin 512) :
    rows (blk1 m c t) q = nrow (xarr m c) (colOf t q) := by
  funext k
  exact iblk1_apply m c t q k

/-- Row `q` of the second column block at point `t` is "abnormal" row `colOf t q`. -/
private theorem rows_blk2 (c : Dev nD) (t : Fin cfg0.N) (q : Fin 512) :
    rows (blk2 m c t) q = arow (xarr m c) (colOf t q) := by
  funext k
  exact iblk2_apply m c t q k

/-! ## One point's column fold is one block's fold -/

/-- The point's column maximum over its 1024 rows is the fold over row block `t % 8` of the distances to column `colOf t q`. -/
private theorem colMax_point (c : Dev nD) (t : Fin cfg0.N) (q : Fin 512) (b : Fin 8) (hb : b.val = t.val % 8) :
    colMax ninf (rows (blk0 m c t)) (rows (blk1 m c t)) q = blockMax ninf (distN m c (colOf t q)) b := by
  unfold colMax blockMax distN
  refine Finset.fold_congr fun p _ => ?_
  exact dist_congr _ _ _ _ _ _ _ _ (rows_blk0 m c t b hb p) (rows_blk1 m c t q)

/-- The point's column minimum likewise, against the "abnormal" rows. -/
private theorem colMin_point (c : Dev nD) (t : Fin cfg0.N) (q : Fin 512) (b : Fin 8) (hb : b.val = t.val % 8) :
    colMin pinf (rows (blk0 m c t)) (rows (blk2 m c t)) q = blockMin pinf (distA m c (colOf t q)) b := by
  unfold colMin blockMin distA
  refine Finset.fold_congr fun p _ => ?_
  exact dist_congr _ _ _ _ _ _ _ _ (rows_blk0 m c t b hb p) (rows_blk2 m c t q)

/-! ## The accumulation over the points of one column block -/

/-- After the body at position `n` the first output block holds, at entry `q`, the running maximum over the row blocks
    `0 … n % 8`: the reset case starts it from `-inf` with the first row block, the accumulating case takes in one more
    row block over what the position before left in the same column block. -/
private theorem outsAt_max_aux (c : Dev nD) : ∀ (n : ℕ) (hn : n < cfg0.N) (q : Fin 512),
    (outsAt m c n hn).1 (ix2 (0 : Fin 1) q)
      = accMax ninf (distN m c (colOf ⟨n, hn⟩ q)) (n % 8) (Nat.mod_lt _ (by omega)) := by
  intro n
  induction n using Nat.strong_induction_on with
  | _ n ih =>
    intro hn q
    by_cases h0 : n % 8 = 0
    · rw [outsAt_A m c ⟨n, hn⟩ h0]
      dsimp only
      rw [outA3_eq]
      refine (Pay.pay3_apply _ _ _).trans ?_
      rw [Pay.pay1_apply]
      refine (congrArg (max ninf) ((Pay.pay7_apply (blk0 m c ⟨n, hn⟩) (blk1 m c ⟨n, hn⟩) q).trans
        (colMax_point m c ⟨n, hn⟩ q ⟨0, by omega⟩ h0.symm))).trans ?_
      exact accMax_congr ninf _ h0.symm (by omega) _
    · rw [outsAt_B m c ⟨n, hn⟩ h0]
      dsimp only
      rw [outB3_eq]
      refine (Pay.pay3_apply _ _ _).trans ?_
      have hlt : n - 1 < cfg0.N := Nat.lt_of_le_of_lt (Nat.sub_le _ _) hn
      have hcol : colOf ⟨n - 1, hlt⟩ q = colOf ⟨n, hn⟩ q := Fin.ext (by
        show (n - 1) / 8 * 512 + q.val = n / 8 * 512 + q.val
        omega)
      have hprev := ih (n - 1) (by omega) hlt q
      rw [hcol] at hprev
      refine (congr (congrArg max hprev) ((Pay.pay7_apply (blk0 m c ⟨n, hn⟩) (blk1 m c ⟨n, hn⟩) q).trans
        (colMax_point m c ⟨n, hn⟩ q ⟨(n - 1) % 8 + 1, by omega⟩ (by show (n - 1) % 8 + 1 = n % 8; omega)))).trans ?_
      exact accMax_congr ninf _ (show (n - 1) % 8 + 1 = n % 8 by omega) (by omega) _

/-- After the body at position `n` the second output block holds, at entry `q`, the running minimum over the row blocks
    `0 … n % 8`, started from `+inf`: the same accumulation with the order reversed. -/
private theorem outsAt_min_aux (c : Dev nD) : ∀ (n : ℕ) (hn : n < cfg0.N) (q : Fin 512),
    (outsAt m c n hn).2 (ix2 (0 : Fin 1) q)
      = accMin pinf (distA m c (colOf ⟨n, hn⟩ q)) (n % 8) (Nat.mod_lt _ (by omega)) := by
  intro n
  induction n using Nat.strong_induction_on with
  | _ n ih =>
    intro hn q
    by_cases h0 : n % 8 = 0
    · rw [outsAt_A m c ⟨n, hn⟩ h0]
      dsimp only
      rw [outA4_eq]
      refine (Pay.pay4_apply _ _ _).trans ?_
      rw [Pay.pay2_apply]
      refine (congrArg (min pinf) ((Pay.pay8_apply (blk0 m c ⟨n, hn⟩) (blk2 m c ⟨n, hn⟩) q).trans
        (colMin_point m c ⟨n, hn⟩ q ⟨0, by omega⟩ h0.symm))).trans ?_
      exact accMin_congr pinf _ h0.symm (by omega) _
    · rw [outsAt_B m c ⟨n, hn⟩ h0]
      dsimp only
      rw [outB4_eq]
      refine (Pay.pay4_apply _ _ _).trans ?_
      have hlt : n - 1 < cfg0.N := Nat.lt_of_le_of_lt (Nat.sub_le _ _) hn
      have hcol : colOf ⟨n - 1, hlt⟩ q = colOf ⟨n, hn⟩ q := Fin.ext (by
        show (n - 1) / 8 * 512 + q.val = n / 8 * 512 + q.val
        omega)
      have hprev := ih (n - 1) (by omega) hlt q
      rw [hcol] at hprev
      refine (congr (congrArg min hprev) ((Pay.pay8_apply (blk0 m c ⟨n, hn⟩) (blk2 m c ⟨n, hn⟩) q).trans
        (colMin_point m c ⟨n, hn⟩ q ⟨(n - 1) % 8 + 1, by omega⟩ (by show (n - 1) % 8 + 1 = n % 8; omega)))).trans ?_
      exact accMin_congr pinf _ (show (n - 1) % 8 + 1 = n % 8 by omega) (by omega) _

/-! ## The two output blocks after each point -/

theorem outsAt_max (c : Dev nD) (t : Fin cfg0.N) (q : Fin 512) :
    (outsAt m c t.val t.isLt).1 (ix2 (0 : Fin 1) q) = accMax ninf (distN m c (colOf t q)) (t.val % 8) (Nat.mod_lt _ (by omega)) := by
  exact outsAt_max_aux m c t.val t.isLt q

theorem outsAt_min (c : Dev nD) (t : Fin cfg0.N) (q : Fin 512) :
    (outsAt m c t.val t.isLt).2 (ix2 (0 : Fin 1) q) = accMin pinf (distA m c (colOf t q)) (t.val % 8) (Nat.mod_lt _ (by omega)) := by
  exact outsAt_min_aux m c t.val t.isLt q

end Cert.KernelIdeal.Fr

end
-- ==== Proof.KI.KValue.lean ====
/-
  The idealized kernel's result. When the region ends, entry `col` of the first output array is what the last row block
  of its column block left: the running maximum over all eight row blocks, which is the maximum over all 8192 rows — the
  specification's column maximum; likewise the second array and the column minimum. The host operations after the
  region cast the two arrays to vectors and apply the tail both programs share.
-/
import proofs.«167629_j67070209294941_1_alg».proof.Proof.KI.Launch
import proofs.«167629_j67070209294941_1_alg».proof.Proof.KI.Final
import proofs.«167629_j67070209294941_1_alg».proof.Proof.KI.Accum
import Idealize.ShloMosaic.Lib.ValueLayout

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ)

open Idealize.ShloMosaic.ValueIdx Cert.Triplet

variable (ρ : Dev nD → PrngReg)

/-- The running maximum and minimum do not depend on how the block count's bound is proved. -/
theorem accMax_idx (a : EReal) (f : Fin 8192 → EReal) {n n' : Nat} (h : n < 8) (h' : n' < 8) (e : n = n') :
    accMax a f n h = accMax a f n' h' := by subst e; rfl
theorem accMin_idx (a : EReal) (f : Fin 8192 → EReal) {n n' : Nat} (h : n < 8) (h' : n' < 8) (e : n = n') :
    accMin a f n h = accMin a f n' h' := by subst e; rfl

/-- Column `col` belongs to column block `col / 512`, whose last grid point sees it at position `col % 512`. -/
theorem colOf_last (col : Fin 8192) (h1 : col.val / 512 < 16) (h2 : col.val % 512 < 512) :
    colOf (lastAt ⟨col.val / 512, h1⟩) ⟨col.val % 512, h2⟩ = col := by
  apply Fin.ext
  show (col.val / 512 * 8 + 7) / 8 * 512 + col.val % 512 = col.val
  omega

/-- The first output array ends holding the specification's column maxima, -/
theorem arr3_apply (c : Dev nD) (col : Fin 8192) :
    (dats m 0 c).arrAt 3 cfg0.N (ix2 (0 : Fin 1) col) = maxVec (xarr m c) (ix1 col) := by
  have h1 : col.val / 512 < 16 := by have := col.isLt; omega
  have h2 : col.val % 512 < 512 := Nat.mod_lt _ (by omega)
  rw [final3]
  show (outsAt m c (lastAt ⟨col.val / 512, h1⟩).val (lastAt ⟨col.val / 512, h1⟩).isLt).1 (ix2 (0 : Fin 1) (⟨col.val % 512, h2⟩ : Fin 512)) = _
  rw [outsAt_max, colOf_last col h1 h2]
  refine (accMax_idx ninf _ _ (by omega : 7 < 8)
    (show (lastAt ⟨col.val / 512, h1⟩).val % 8 = 7 from (by show (col.val / 512 * 8 + 7) % 8 = 7; omega))).trans ?_
  rw [accMax_last]
  rfl

/-- and the second the column minima. -/
theorem arr4_apply (c : Dev nD) (col : Fin 8192) :
    (dats m 0 c).arrAt 4 cfg0.N (ix2 (0 : Fin 1) col) = minVec (xarr m c) (ix1 col) := by
  have h1 : col.val / 512 < 16 := by have := col.isLt; omega
  have h2 : col.val % 512 < 512 := Nat.mod_lt _ (by omega)
  rw [final4]
  show (outsAt m c (lastAt ⟨col.val / 512, h1⟩).val (lastAt ⟨col.val / 512, h1⟩).isLt).2 (ix2 (0 : Fin 1) (⟨col.val % 512, h2⟩ : Fin 512)) = _
  rw [outsAt_min, colOf_last col h1 h2]
  refine (accMin_idx pinf _ _ (by omega : 7 < 8)
    (show (lastAt ⟨col.val / 512, h1⟩).val % 8 = 7 from (by show (col.val / 512 * 8 + 7) % 8 = 7; omega))).trans ?_
  rw [accMin_last]
  rfl

/-- The two output arrays, cast to vectors as the host casts them, are the specification's two vectors. -/
theorem cast3 (c : Dev nD) :
    (fun i => shapeCast S8192 ((dats m 0 c).arrAt 3 cfg0.N) shapeCasts_S1x8192_S8192 i) = maxVec (xarr m c) := by
  funext i
  obtain ⟨col, rfl⟩ : ∃ col : Fin 8192, i = ix1 col := ⟨i 0, eq_ix1 i⟩
  exact (shapeCast_1a_a_apply _ _ col).trans (arr3_apply m c col)

theorem cast4 (c : Dev nD) :
    (fun i => shapeCast S8192 ((dats m 0 c).arrAt 4 cfg0.N) shapeCasts_S1x8192_S8192 i) = minVec (xarr m c) := by
  funext i
  obtain ⟨col, rfl⟩ : ∃ col : Fin 8192, i = ix1 col := ⟨i 0, eq_ix1 i⟩
  exact (shapeCast_1a_a_apply _ _ col).trans (arr4_apply m c col)

/-- Under the last valuation the result buffer holds the shared tail of the two vectors. -/
theorem Vend_v13 (c : Dev nD) :
    Vend m c (Proc.devRef .tc main_v13) = tail reducesTo_S8192_S_d0 h_S_ bcast_S_S8192 (maxVec (xarr m c)) (minVec (xarr m c)) := by
  rw [← cast3 m c, ← cast4 m c]
  show StableHlo.after hostOps1 (V2 m c) (Proc.devRef .tc main_v13) = _
  after_results
  rw [V2_v2_0, V2_v2_1]
  rfl

/-- THE VALUE RUN: the idealized kernel runs to its end with its result at the specification's value of the argument
    array, the argument unchanged. -/
theorem run_value : θ_run defs (onTc (τ := τ) (main (F := Ideal))) ⟨m, fun _ => 0, ρ⟩ (fun r => ∀ c : Dev nD,
      r.2.mem ((c.tc : Thread nD τ).loc main_v13) = tail reducesTo_S8192_S_d0 h_S_ bcast_S_S8192 (maxVec (xarr m c)) (minVec (xarr m c))
      ∧ r.2.mem ((c.tc : Thread nD τ).loc main_arg0) = m ((c.tc : Thread nD τ).loc main_arg0)) :=
  (θ_run defs _ _).mono (fun r h c =>
    ⟨(h c (Proc.devRef .tc main_v13) (mem_ucRefs main_v13 rfl)).trans (Vend_v13 m c),
     (h c (Proc.devRef .tc main_arg0) (mem_ucRefs main_arg0 rfl)).trans (Vend_arg0 m c)⟩) (run_main m ρ)

end Cert.KernelIdeal.Fr

end
-- ==== Proof.RefValue.lean ====
/-
  The reference program's result, read at the extended reals, is the specification's value of the argument array:
  its two column reductions are the specification's column maxima and minima, and its last nine operations are the
  shared tail.
-/
import proofs.«167629_j67070209294941_1_alg».proof.Proof.Gen.ReferenceIdeal.Read
import proofs.«167629_j67070209294941_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.Read Cert.Triplet

/-! ## The reference's composed index maps, at coordinates -/

/-- The row-norm chain of the first operand reads row `i` of the first half. -/
private theorem idx_rowNorm (i j : Fin 8192) (k : Fin 256) :
    idx_main_v0 (idx_main_v3 (idx_main_v4 (idx_main_v8 (ix2 i j))) k) = ix2 (⟨i.val, by omega⟩ : Fin 16384) k :=
  funext fun a => Fin.ext (by match a with | ⟨0, _⟩ => rfl | ⟨1, _⟩ => rfl)

/-- The column-norm chain of the first matrix reads row `j` of the first half. -/
private theorem idx_colNorm (i j : Fin 8192) (k : Fin 256) :
    idx_main_v0 (idx_main_v6 (idx_main_v7 (idx_main_v9 (ix2 i j))) k) = ix2 (⟨j.val, by omega⟩ : Fin 16384) k :=
  funext fun a => Fin.ext (by match a with | ⟨0, _⟩ => rfl | ⟨1, _⟩ => rfl)

/-- The left factor of the first product reads row `i` of the first half. -/
private theorem idx_dotL (i j : Fin 8192) (k : Fin 256) :
    idx_main_v0 (lidx_main_v12 (ix2 i j) k) = ix2 (⟨i.val, by omega⟩ : Fin 16384) k :=
  funext fun a => Fin.ext (by match a with | ⟨0, _⟩ => rfl | ⟨1, _⟩ => rfl)

/-- The right factor of the first product, through the transpose, reads row `j` of the first half. -/
private theorem idx_dotR (i j : Fin 8192) (k : Fin 256) :
    idx_main_v0 (idx_main_v11 (ridx_main_v12 (ix2 i j) k)) = ix2 (⟨j.val, by omega⟩ : Fin 16384) k :=
  funext fun a => Fin.ext (by match a with | ⟨0, _⟩ => rfl | ⟨1, _⟩ => rfl)

/-- The row-norm chain of the second matrix reads row `i` of the first half. -/
private theorem idx_rowNorm' (i j : Fin 8192) (k : Fin 256) :
    idx_main_v0 (idx_main_v20 (idx_main_v21 (idx_main_v25 (ix2 i j))) k) = ix2 (⟨i.val, by omega⟩ : Fin 16384) k :=
  funext fun a => Fin.ext (by match a with | ⟨0, _⟩ => rfl | ⟨1, _⟩ => rfl)

/-- The column-norm chain of the second matrix reads row `j` of the second half. -/
private theorem idx_colNorm' (i j : Fin 8192) (k : Fin 256) :
    idx_main_v1 (idx_main_v23 (idx_main_v24 (idx_main_v26 (ix2 i j))) k) = ix2 (⟨j.val + 8192, by omega⟩ : Fin 16384) k :=
  funext fun a => Fin.ext (by match a with | ⟨0, _⟩ => exact Nat.add_comm _ _ | ⟨1, _⟩ => rfl)

/-- The left factor of the second product reads row `i` of the first half. -/
private theorem idx_dotL' (i j : Fin 8192) (k : Fin 256) :
    idx_main_v0 (lidx_main_v29 (ix2 i j) k) = ix2 (⟨i.val, by omega⟩ : Fin 16384) k :=
  funext fun a => Fin.ext (by match a with | ⟨0, _⟩ => rfl | ⟨1, _⟩ => rfl)

/-- The right factor of the second product, through the transpose, reads row `j` of the second half. -/
private theorem idx_dotR' (i j : Fin 8192) (k : Fin 256) :
    idx_main_v1 (idx_main_v28 (ridx_main_v29 (ix2 i j) k)) = ix2 (⟨j.val + 8192, by omega⟩ : Fin 16384) k :=
  funext fun a => Fin.ext (by match a with | ⟨0, _⟩ => exact Nat.add_comm _ _ | ⟨1, _⟩ => rfl)

/-! ## One entry of each distance matrix -/

/-- Entry (i, j) of the reference's first distance matrix is the distance of rows `i` and `j` of the first half. -/
private theorem v18_entry (x0 : (⟨S16384x256, .f32⟩ : BufTy).Contents (Elt Ideal)) (i j : Fin 8192) :
    val_main_v18 (F := Ideal) x0 (ix2 i j) = dist (nrow x0) (nrow x0) i j := by
  rw [val_main_v18_apply, val_main_v17_apply, val_main_v15_apply, val_main_v10_apply, val_main_v8_apply, val_main_v4_apply,
    val_main_v3_apply, val_main_v9_apply, val_main_v7_apply, val_main_v6_apply, val_main_v14_apply, val_main_v13_apply,
    val_main_v12_apply, val_main_v16_apply]
  simp only [val_main_v2_apply, val_main_v5_apply, val_main_v11_apply, val_main_v0_apply, val_main_cst_apply, val_main_cst_0_apply,
    val_main_cst_1_apply, val_main_cst_2_apply, idx_rowNorm, idx_colNorm, idx_dotL, idx_dotR,
    Ideal.hostUnary_sqrt_def, Ideal.maximumf_def, Ideal.subf_def, Ideal.addf_def, Ideal.mulf_def, Ideal.ofBits_def]
  unfold Triplet.dist sqn dotp nrow
  rw [Ideal.ofBits_zero_f32, zero_add, zero_add, show (zero : EReal) = 0 from Ideal.ofBits_zero_f32]

/-- Entry (i, j) of the reference's second distance matrix is the distance of row `i` of the first half and row `j` of
    the second. -/
private theorem v35_entry (x0 : (⟨S16384x256, .f32⟩ : BufTy).Contents (Elt Ideal)) (i j : Fin 8192) :
    val_main_v35 (F := Ideal) x0 (ix2 i j) = dist (nrow x0) (arow x0) i j := by
  rw [val_main_v35_apply, val_main_v34_apply, val_main_v32_apply, val_main_v27_apply, val_main_v25_apply, val_main_v21_apply,
    val_main_v20_apply, val_main_v26_apply, val_main_v24_apply, val_main_v23_apply, val_main_v31_apply, val_main_v30_apply,
    val_main_v29_apply, val_main_v33_apply]
  simp only [val_main_v19_apply, val_main_v22_apply, val_main_v28_apply, val_main_v0_apply, val_main_v1_apply, val_main_cst_3_apply,
    val_main_cst_4_apply, val_main_cst_5_apply, val_main_cst_6_apply, idx_rowNorm', idx_colNorm', idx_dotL', idx_dotR',
    Ideal.hostUnary_sqrt_def, Ideal.maximumf_def, Ideal.subf_def, Ideal.addf_def, Ideal.mulf_def, Ideal.ofBits_def]
  unfold Triplet.dist sqn dotp nrow arow
  rw [Ideal.ofBits_zero_f32, zero_add, zero_add, show (zero : EReal) = 0 from Ideal.ofBits_zero_f32]

/-! ## The two column reductions -/

/-- The reduced index `q` with row `k` put back is (k, q). -/
private theorem lift_col (h : S8192x8192.Reduces [0] S8192) (q : Fin 8192) (k : Fin (S8192x8192.size 0)) :
    h.lift (ix1 q) k = ix2 (⟨k.val, k.isLt⟩ : Fin 8192) q := by
  funext c; apply Fin.ext
  match c with
  | ⟨0, _⟩ => rfl
  | ⟨1, _⟩ => rfl

/-- The first axis of the 8192 × 8192 matrices can be reduced away. -/
private theorem red0 : S8192x8192.Reduces [0] S8192 := by decide

/-- The reference's column maxima of the normal-normal distances are the specification's. -/
theorem ref_max (x0 : (⟨S16384x256, .f32⟩ : BufTy).Contents (Elt Ideal)) : val_main_v36 (F := Ideal) x0 = maxVec x0 := by
  funext j
  obtain ⟨q, rfl⟩ : ∃ q : Fin 8192, j = ix1 q := ⟨j 0, eq_ix1 j⟩
  unfold val_main_v36
  rw [Host.reduce_eq_fold_single FloatOps.maximumf _ _ reducesTo_S8192x8192_S8192_d0 red0 h_S_]
  have hf : (val_main_v18 (F := Ideal) x0 ∘ red0.lift (ix1 q)) = fun k : Fin 8192 => dist (nrow x0) (nrow x0) k q :=
    funext fun k => (congrArg (val_main_v18 (F := Ideal) x0) (lift_col red0 q k)).trans (v18_entry x0 _ q)
  rw [hf]
  rfl

/-- The reference's column minima of the normal-abnormal distances are the specification's. -/
theorem ref_min (x0 : (⟨S16384x256, .f32⟩ : BufTy).Contents (Elt Ideal)) : val_main_v37 (F := Ideal) x0 = minVec x0 := by
  funext j
  obtain ⟨q, rfl⟩ : ∃ q : Fin 8192, j = ix1 q := ⟨j 0, eq_ix1 j⟩
  unfold val_main_v37
  rw [Host.reduce_eq_fold_single FloatOps.minimumf _ _ reducesTo_S8192x8192_S8192_d0 red0 h_S_]
  have hf : (val_main_v35 (F := Ideal) x0 ∘ red0.lift (ix1 q)) = fun k : Fin 8192 => dist (nrow x0) (arow x0) k q :=
    funext fun k => (congrArg (val_main_v35 (F := Ideal) x0) (lift_col red0 q k)).trans (v35_entry x0 _ q)
  rw [hf]
  rfl

/-- The reference's result is the shared tail of the two vectors. -/
theorem ref_result (x0 : (⟨S16384x256, .f32⟩ : BufTy).Contents (Elt Ideal)) :
    val_main_v46 (F := Ideal) x0 = tail reducesTo_S8192_S_d0 h_S_ bcast_S_S8192 (maxVec x0) (minVec x0) := by
  unfold val_main_v46 val_main_v45 val_main_v44 val_main_v43 val_main_v42 val_main_v41 val_main_v40 val_main_v39 val_main_v38
    val_main_cst_9 val_main_cst_10 val_main_cst_11 val_main_cst_12 val_main_cst_13 val_main_cst_14 Cert.Triplet.tail
  rw [ref_max, ref_min]

end Cert.ReferenceIdeal.RefValue

end
-- ==== Proof.lean ====
/-
  The certificate of the column-extrema distance kernel against its jnp reference.

  The kernel never forms the two 8192 × 8192 distance matrices: on a 16 × 8 grid it computes, for one block of 512
  columns and one block of 1024 rows at a time, the distances `sqrt (max (|a_i|² + |b_j|² - 2 ⟨a_i, b_j⟩) 0)` from the
  "normal" rows to the "normal" and to the "abnormal" columns, reduces them over the block's rows (`max`, resp. `min`),
  and carries the running maximum and minimum of a column block in its two output blocks across the eight row blocks,
  resetting them to `-inf` / `+inf` at the first. The reference forms both matrices and reduces each over all rows. On the
  extended reals the two agree entry by entry before the reduction (same operations, same grouping, same literals), and
  `max` and `min` being idempotent, commutative and associative, the running combination of the eight block folds is the
  fold over all rows. Both programs then apply the same host operations to the two vectors (the mean of the maxima plus
  the mean of `max (100 - minimum) 0`). No fact about finiteness is used.

  The frames: each kernel program is the two host slices, one pipelined region whose first two windows stage blocks of ONE
  array (it is entered with that array's buffer split in two half shares, one per window, and left with the halves
  joined), and the host operations after it; the reference is a straight line of host operations.
-/
import proofs.«167629_j67070209294941_1_alg».proof.Defs
import proofs.«167629_j67070209294941_1_alg».proof.Proof.Gen.Kernel
import proofs.«167629_j67070209294941_1_alg».proof.Proof.Gen.KernelIdeal
import proofs.«167629_j67070209294941_1_alg».proof.Proof.Gen.ReferenceIdeal
import proofs.«167629_j67070209294941_1_alg».proof.Proof.Gen.ReferenceIdeal.Run
import proofs.«167629_j67070209294941_1_alg».proof.Proof.Gen.Pre_finite_inputs
import proofs.«167629_j67070209294941_1_alg».proof.Proof.K.Launch
import proofs.«167629_j67070209294941_1_alg».proof.Proof.KI.KValue
import proofs.«167629_j67070209294941_1_alg».proof.Proof.RefValue
import Idealize.ShloMosaic.Adequacy
import Idealize.ShloMosaic.Init

noncomputable section

namespace Cert.Proof

open Idealize.ShloMosaic Idealize.SL.Sem

/-- The word-level kernel runs, faults nowhere and leaves its argument unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the argument, the idealized kernel and the idealized reference both end at the
    specification's value of the argument array. -/
theorem algebraic : Cert.algebraic_KernelIdeal_ReferenceIdeal := by
  intro m ρ m' ρ' _ hagree
  refine ⟨_, Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.ref_result, hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
